-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S256x2 .f32) (main_arg12 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg11
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x2 .f32) (main_arg12 : FVec F S2 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S256x2 .f32) (main_arg12 : FVec F S2 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x1024 .f32) (main_arg1 : FVec F S1024x512 .f32) (main_arg2 : FVec F S512 .f32) (main_arg3 : FVec F S512x256 .f32) (main_arg4 : FVec F S256 .f32) (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S256x2 .f32) (main_arg12 : FVec F S2 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S50000x1024 : Shape := ⟨2, ![50000, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S512x512 : Shape := ⟨2, ![512, 512]⟩
abbrev S1x512 : Shape := ⟨2, ![1, 512]⟩
abbrev S1x256 : Shape := ⟨2, ![1, 256]⟩
abbrev S1x2 : Shape := ⟨2, ![1, 2]⟩
abbrev S50000x512 : Shape := ⟨2, ![50000, 512]⟩
abbrev S50000x2 : Shape := ⟨2, ![50000, 2]⟩
abbrev S1024x1024 : Shape := ⟨2, ![1024, 1024]⟩
abbrev S1024x2 : Shape := ⟨2, ![1024, 2]⟩
abbrev S1024x256 : Shape := ⟨2, ![1024, 256]⟩

abbrev nBuf : Space → Nat
  | .hbm => 26
  | .vmem => 16
  | .smem => 0
  | _ => 0

abbrev bufTy : (tb : Table) → Fin (tcTables nBuf tb) → BufTy
  | .hbm, ⟨0, _⟩ => ⟨S50000x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S512x512, .f32⟩
  | .hbm, ⟨14, _⟩ => ⟨S512x512, .bf16⟩
  | .hbm, ⟨15, _⟩ => ⟨S256x256, .bf16⟩
  | .hbm, ⟨16, _⟩ => ⟨S256x256, .bf16⟩
  | .hbm, ⟨17, _⟩ => ⟨S256x2, .bf16⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S1x256, .f32⟩
  | .hbm, ⟨22, _⟩ => ⟨S1x256, .f32⟩
  | .hbm, ⟨23, _⟩ => ⟨S1x2, .f32⟩
  | .hbm, ⟨24, _⟩ => ⟨S50000x512, .f32⟩
  | .hbm, ⟨25, _⟩ => ⟨S50000x2, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x2, .bf16⟩
  | .local _ .vmem, ⟨11, _⟩ => ⟨S1x2, .f32⟩
  | .local _ .vmem, ⟨12, _⟩ => ⟨S1024x512, .f32⟩
  | .local _ .vmem, ⟨13, _⟩ => ⟨S1024x512, .f32⟩
  | .local _ .vmem, ⟨14, _⟩ => ⟨S1024x2, .f32⟩
  | .local _ .vmem, ⟨15, _⟩ => ⟨S1024x2, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S512x256_S512x256_S512x512_d1 : Shape.Concatenates [S512x256, S512x256] S512x512 1
  bitsLt_bf16_f32 : FTy.bits .bf16 < FTy.bits .f32
  shapeCasts_S512_S1x512 : S512.ShapeCasts S1x512
  concatenates_S256_S256_S512_d0 : Shape.Concatenates [S256, S256] S512 0
  shapeCasts_S256_S1x256 : S256.ShapeCasts S1x256
  shapeCasts_S2_S1x2 : S2.ShapeCasts S1x2
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S1024x512_o0_0_S1024x256 : S1024x512.Slices ![0, 0] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x512_o0_256_S1024x256 : S1024x512.Slices ![0, 256] S1024x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  dot_S1024x256_S256x256_S1024x256_1_0_0_1_n_n_wf : DotDims.WF S1024x256 S256x256 S1024x256 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1024.size a < S50000x1024.size a
  hwx0_0 : ∀ i : grid0.Coords, EltTy.bits .f32 = 32 ∨ (Rect.unit (s := S50000x1024) (fun a => cc0_transform_0 i a * S1024x1024.size a) (fun a => (Pipeline.Clip.of (cc0_transform_0 i a) (S1024x1024.size a) (S50000x1024.size a)).extent (S1024x1024.size a)) fun a => Pipeline.Clip.inb (Pipeline.Clip.ok_of (hstart0_0 i a))).WholeWords (EltTy.packing .f32)
  hwxs0_0 : ∀ i : grid0.Coords, EltTy.bits .f32 = 32 ∨ (Rect.unit (s := S1024x1024) (fun _ => 0) (fun a => (Pipeline.Clip.of (cc0_transform_0 i a) (S1024x1024.size a) (S50000x1024.size a)).extent (S1024x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x2.size a ≤ S256x2.size a
  hwx0_9 : ∀ i : grid0.Coords, EltTy.bits .bf16 = 32 ∨ (Rect.block (s := S256x2) S256x2.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S1024x512.size a < S50000x512.size a
  hwx0_11 : ∀ i : grid0.Coords, EltTy.bits .f32 = 32 ∨ (Rect.unit (s := S50000x512) (fun a => cc0_transform_11 i a * S1024x512.size a) (fun a => (Pipeline.Clip.of (cc0_transform_11 i a) (S1024x512.size a) (S50000x512.size a)).extent (S1024x512.size a)) fun a => Pipeline.Clip.inb (Pipeline.Clip.ok_of (hstart0_11 i a))).WholeWords (EltTy.packing .f32)
  hwxs0_11 : ∀ i : grid0.Coords, EltTy.bits .f32 = 32 ∨ (Rect.unit (s := S1024x512) (fun _ => 0) (fun a => (Pipeline.Clip.of (cc0_transform_11 i a) (S1024x512.size a) (S50000x512.size a)).extent (S1024x512.size a)) fun a => (Nat.zero_add _).trans_le (Pipeline.Clip.extent_le (Pipeline.Clip.ok_of (hstart0_11 i a)))).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S1024x2.size a < S50000x2.size a
  hwx0_12 : ∀ i : grid0.Coords, EltTy.bits .f32 = 32 ∨ (Rect.unit (s := S50000x2) (fun a => cc0_transform_12 i a * S1024x2.size a) (fun a => (Pipeline.Clip.of (cc0_transform_12 i a) (S1024x2.size a) (S50000x2.size a)).extent (S1024x2.size a)) fun a => Pipeline.Clip.inb (Pipeline.Clip.ok_of (hstart0_12 i a))).WholeWords (EltTy.packing .f32)
  hwxs0_12 : ∀ i : grid0.Coords, EltTy.bits .f32 = 32 ∨ (Rect.unit (s := S1024x2) (fun _ => 0) (fun a => (Pipeline.Clip.of (cc0_transform_12 i a) (S1024x2.size a) (S50000x2.size a)).extent (S1024x2.size a)) fun a => (Nat.zero_add _).trans_le (Pipeline.Clip.extent_le (Pipeline.Clip.ok_of (hstart0_12 i a)))).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpecClip (Memref.whole main_arg0) S1024x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpecClip (Memref.whole main_v11_0) S1024x512.size cc0_transform_11 reads0_11 true false 2 stage0_11 sem0_11
    hrank0 hreads0_11 hstart0_11 nbuf0_11 (Memref.isWhole_whole _) hwx0_11 hwxs0_11 hstage0_11

abbrev win0_12 : Pipeline.Window sig grid0 :=
  Pipeline.Window.ofSpecClip (Memref.whole main_v11_1) S1024x2.size cc0_transform_12 reads0_12 true false 2 stage0_12 sem0_12
    hrank0 hreads0_12 hstart0_12 nbuf0_12 (Memref.isWhole_whole _) hwx0_12 hwxs0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S50000x512 : Shape := ⟨2, ![50000, 512]⟩
abbrev S1x512 : Shape := ⟨2, ![1, 512]⟩
abbrev S_ : Shape := ⟨0, ![]⟩
abbrev S50000x256 : Shape := ⟨2, ![50000, 256]⟩
abbrev S1x256 : Shape := ⟨2, ![1, 256]⟩
abbrev S50000x2 : Shape := ⟨2, ![50000, 2]⟩
abbrev S1x2 : Shape := ⟨2, ![1, 2]⟩

abbrev nBuf : Space → Nat
  | .hbm => 50
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S50000x512, .f32⟩
  | .hbm, ⟨14, _⟩ => ⟨S1x512, .f32⟩
  | .hbm, ⟨15, _⟩ => ⟨S50000x512, .f32⟩
  | .hbm, ⟨16, _⟩ => ⟨S50000x512, .f32⟩
  | .hbm, ⟨17, _⟩ => ⟨S_, .f32⟩
  | .hbm, ⟨18, _⟩ => ⟨S50000x512, .f32⟩
  | .hbm, ⟨19, _⟩ => ⟨S50000x512, .f32⟩
  | .hbm, ⟨20, _⟩ => ⟨S50000x256, .f32⟩
  | .hbm, ⟨21, _⟩ => ⟨S1x256, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S50000x256, .f32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x2, .f32⟩
  | .hbm, ⟨47, _⟩ => ⟨S1x2, .f32⟩
  | .hbm, ⟨48, _⟩ => ⟨S50000x2, .f32⟩
  | .hbm, ⟨49, _⟩ => ⟨S50000x2, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x1024_S1024x512_S50000x512_1_0_0_1_n_n_wf : DotDims.WF S50000x1024 S1024x512 S50000x512 [1] [0] [0] [1] [] []
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.BodyRunK.lean ====
/-
  The kernel body as a program on thirteen whole staging buffers. It reads each of its eleven inputs whole — a block of
  1024 instance rows, the compression weights and bias, the merged first-layer weights and bias of the two branches, each
  branch's second-layer weights and bias, the last layer's weights and bias —, writes the block of compressed features
  whole into the first result buffer and the block of attention scores whole into the second, and leaves the inputs as
  they were. Stated for any float family: nothing here looks inside the arithmetic.
-/
import proofs.«423746_j17669495455829_3_alg».proof.Proof.Gen.Kernel.Skeleton
import proofs.«423746_j17669495455829_3_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of compressed features the body stores, from the staged blocks it loads. -/
abbrev outH (x0 : Vec F S1024x1024 .f32) (x1 : Vec F S1024x512 .f32) (x2 : Vec F S1x512 .f32) : Vec F S1024x512 .f32 :=
  k0_pay2 x0 x1 x2

/-- The block of attention scores the body stores, from the staged blocks it loads. -/
abbrev outA (x0 : Vec F S1024x1024 .f32) (x1 : Vec F S1024x512 .f32) (x2 : Vec F S1x512 .f32) (x3 : Vec F S512x512 .bf16) (x4 : Vec F S1x512 .f32) (x5 : Vec F S256x256 .bf16) (x6 : Vec F S1x256 .f32) (x7 : Vec F S256x256 .bf16) (x8 : Vec F S1x256 .f32) (x9 : Vec F S256x2 .bf16) (x10 : Vec F S1x2 .f32) : Vec F S1024x2 .f32 :=
  k0_pay1 (k0_pay4 x0 x1 x2 x3 x4 x5 x6) (k0_pay5 x0 x1 x2 x3 x4 x7) x8 x9 x10

set_option maxHeartbeats 4000000 in
/-- The kernel body on whole staging memrefs: the eleven inputs' at contents `x0 … x10`, the two outputs' at anything. It
    loads every input whole, stores the block of compressed features whole into the first output and the block of
    attention scores whole into the second, and leaves the inputs as they were. -/
theorem sound_kernel (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S256x2 .bf16) (harg10 : arg10.IsWhole) (arg11 : Memref sig .tc .vmem S1x2 .f32) (harg11 : arg11.IsWhole) (arg12 : Memref sig .tc .vmem S1024x512 .f32) (harg12 : arg12.IsWhole) (arg13 : Memref sig .tc .vmem S1024x2 .f32) (harg13 : arg13.IsWhole)
    (x0 : Vec F S1024x1024 .f32) (x1 : Vec F S1024x512 .f32) (x2 : Vec F S1x512 .f32) (x3 : Vec F S512x512 .bf16) (x4 : Vec F S1x512 .f32) (x5 : Vec F S256x256 .bf16) (x6 : Vec F S1x256 .f32) (x7 : Vec F S256x256 .bf16) (x8 : Vec F S1x256 .f32) (x9 : Vec F S256x2 .bf16) (x10 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (outH x0 x1 x2)
            ∗ owns (c : Thread nD τ) arg13 fullShare (outA x0 x1 x2 x3 x4 x5 x6 x7 x8 x9 x10)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz (fun a => by rw [hz]; exact (Nat.zero_add _).le) y⟩),
      View.canon_unit_zero hz]
    simp only [View.readAt_eq_ld, View.ld_unit_zero (S := S1024x1024) hz, View.ld_unit_zero (S := S1024x512) hz, View.ld_unit_zero (S := S1x512) hz, View.ld_unit_zero (S := S512x512) hz, View.ld_unit_zero (S := S256x256) hz, View.ld_unit_zero (S := S1x256) hz, View.ld_unit_zero (S := S256x2) hz, View.ld_unit_zero (S := S1x2) hz]
  · iexists _; isplitr
    swap; · iexact H12
    ipureintro
    sl_unfold_words
    rw [View.read_writes_eq_canon _ _ _ (fun y => ⟨_, List.mem_singleton_self _, View.mem_set_unit_zero hz (fun a => by rw [hz]; exact (Nat.zero_add _).le) y⟩),
      View.canon_unit_zero hz]
    simp only [View.readAt_eq_ld, View.ld_unit_zero (S := S1024x1024) hz, View.ld_unit_zero (S := S1024x512) hz, View.ld_unit_zero (S := S1x512) hz, View.ld_unit_zero (S := S512x512) hz, View.ld_unit_zero (S := S256x256) hz, View.ld_unit_zero (S := S1x256) hz, View.ld_unit_zero (S := S256x2) hz, View.ld_unit_zero (S := S1x2) hz]

end Cert.Kernel.Hand

end
-- ==== Proof.DataK.lean ====
/-
  The pipeline over 49 blocks of 1024 instances, and the frame. The instance window and the two result windows are cut
  at the arrays' end (the last block has 848 rows inside the arrays); the ten weight and bias windows stage their whole
  arrays once. The proof data name what every staging buffer holds after the body at each point; for the frame the two
  results are forgotten, the body runs at every point from what the fetches delivered, and the thirteen argument arrays
  end as launched. Stated for any float family.
-/
import proofs.«423746_j17669495455829_3_alg».proof.Proof.Gen.Kernel.Frame
import proofs.«423746_j17669495455829_3_alg».proof.Proof.Gen.Kernel.Points
import proofs.«423746_j17669495455829_3_alg».proof.Proof.BodyRunK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The instance block at point `t` as the proof data names it: the rows inside the array, filled out with the zero
    word past the array's end (rows nothing reads back). -/
def xin (c : Dev nD) (t : Fin cfg0.N) : Vec F S1024x1024 .f32 :=
  win0_0.fill (grid0.coords t) (fun _ => Scalar.ofBits .f32 0#32) (iblk m c 0 t)

/-- The proof data of the pipeline on core `c`: the arrays as the region finds them; after the body at point `t` the
    instance window's buffer at its block (zero-filled past the array's end), each weight and bias window's at its whole
    array, the feature window's at the block of compressed features of that instance block and the score window's at its
    block of attention scores; the invariant the scoped rest and the generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outH (xin m c t) (iblk m c 1 t) (iblk m c 2 t)
    | ⟨12, _⟩ => outA (xin m c t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outH (xin m c t) (iblk m c 1 t) (iblk m c 2 t) := by dsimp only [dats]
theorem after0_12 (c : Dev nD) (t : Fin cfg0.N) : (dats m 0 c).after 12 t = outA (xin m c t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- The instance window is fetched at every point: its buffer holds the block on the rows inside the array and whatever
    it held elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation with the two results forgotten

For the frame nothing of what the body leaves in the two result windows is read: they are handed to the body at any
contents and taken back at any. (At the word level the first matrix product is taken at a precision the model leaves
uninterpreted, so what it makes of the rows past the array's end is not a function of the rows inside it.) -/

/-- The result windows. -/
def forgets : Fin 13 → Bool := fun w => w.val == 11 || w.val == 12

/-- What the body is called with at point `t`, the windows one by one: each input's buffer at what it then holds, each
    result's at anything. -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X))

/-- And what it returns: the instance window's buffer at its block on the rows inside the array, the weights' and
    biases' at their arrays, the results' at anything. -/
def bodyPostF (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X))

/-- The zero-filled instance block, cut back to the rows inside the array, is the block. -/
theorem cut_xin (c : Dev nD) (t : Fin cfg0.N) : win0_0.cut (grid0.coords t) (xin m c t) = iblk m c 0 t :=
  win0_0.cut_fill _ _ _

set_option maxHeartbeats 1000000 in
/-- The body at any point: every input's buffer holds its block (the instance window's on the rows inside the array,
    anything past them), so the body's triple applies; the invariant and what the core owes pass through unread. -/
theorem sound_body_fgt (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, cut_xin]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X11, H11⟩, ⟨%X12, H12⟩⟩
  iapply (sound_kernel c Set.univ (grid0.coords t) _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexists _; iexact H12

/-- The library's body obligation with the two results forgotten, at every point. -/
theorem body_obligation_fgt (c : Dev nD) :
    BodyObligationLoose (dats m 0 c) (defs₀ (F := F)) Variants.none () Set.univ forgets := fun t => by
  rw [bigSep_W0, bigSep_W0]
  exact sound_body_fgt m c t

/-! ## The run and the frame -/

set_option backward.isDefEq.respectTransparency.types false in
/-- At the compiled mesh, for any values, from any memory with zero counters: every weakly fair execution of @main
    terminates, every input array of the pipeline ends unchanged, nothing is stated of the two results, and every other
    unscoped buffer ends as the region found it. -/
theorem run_fgt : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation_fgt m c).toRForget)
    (hshare := fun c => ((dats m 0 c).toRForget forgets).share_full fun _ => rfl)
    (howed := fun _ _ => rfl) (V := V m) (hmain := hmain m Variants.none) (hA := A_eq m) (hΦ := fun _ _ => rfl)

/-- The frame: the program runs, faults nowhere, and leaves its thirteen argument arrays as launched — the two the
    pipeline stages as inputs by the run's first clause, the eleven it never touches by its second. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_fgt m ρ)

end Cert.Kernel.Hand

end
-- ==== Proof.BodyRun.lean ====
/-
  The kernel body as a program on thirteen whole staging buffers. It reads each of its eleven inputs whole — a block of
  1024 instance rows, the compression weights and bias, the merged first-layer weights and bias of the two branches, each
  branch's second-layer weights and bias, the last layer's weights and bias —, writes the block of compressed features
  whole into the first result buffer and the block of attention scores whole into the second, and leaves the inputs as
  they were. Stated for any float family: nothing here looks inside the arithmetic.
-/
import proofs.«423746_j17669495455829_3_alg».proof.Proof.Gen.KernelIdeal.Skeleton
import proofs.«423746_j17669495455829_3_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of compressed features the body stores, from the staged blocks it loads. -/
abbrev outH (x0 : Vec F S1024x1024 .f32) (x1 : Vec F S1024x512 .f32) (x2 : Vec F S1x512 .f32) : Vec F S1024x512 .f32 :=
  k0_pay2 x0 x1 x2

/-- The block of attention scores the body stores, from the staged blocks it loads. -/
abbrev outA (x0 : Vec F S1024x1024 .f32) (x1 : Vec F S1024x512 .f32) (x2 : Vec F S1x512 .f32) (x3 : Vec F S512x512 .bf16) (x4 : Vec F S1x512 .f32) (x5 : Vec F S256x256 .bf16) (x6 : Vec F S1x256 .f32) (x7 : Vec F S256x256 .bf16) (x8 : Vec F S1x256 .f32) (x9 : Vec F S256x2 .bf16) (x10 : Vec F S1x2 .f32) : Vec F S1024x2 .f32 :=
  k0_pay1 (k0_pay4 x0 x1 x2 x3 x4 x5 x6) (k0_pay5 x0 x1 x2 x3 x4 x7) x8 x9 x10

set_option maxHeartbeats 4000000 in
/-- The kernel body on whole staging memrefs: the eleven inputs' at contents `x0 … x10`, the two outputs' at anything. It
    loads every input whole, stores the block of compressed features whole into the first output and the block of
    attention scores whole into the second, and leaves the inputs as they were. -/
theorem sound_kernel (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S256x2 .bf16) (harg10 : arg10.IsWhole) (arg11 : Memref sig .tc .vmem S1x2 .f32) (harg11 : arg11.IsWhole) (arg12 : Memref sig .tc .vmem S1024x512 .f32) (harg12 : arg12.IsWhole) (arg13 : Memref sig .tc .vmem S1024x2 .f32) (harg13 : arg13.IsWhole)
    (x0 : Vec F S1024x1024 .f32) (x1 : Vec F S1024x512 .f32) (x2 : Vec F S1x512 .f32) (x3 : Vec F S512x512 .bf16) (x4 : Vec F S1x512 .f32) (x5 : Vec F S256x256 .bf16) (x6 : Vec F S1x256 .f32) (x7 : Vec F S256x256 .bf16) (x8 : Vec F S1x256 .f32) (x9 : Vec F S256x2 .bf16) (x10 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (outH x0 x1 x2)
            ∗ owns (c : Thread nD τ) arg13 fullShare (outA x0 x1 x2 x3 x4 x5 x6 x7 x8 x9 x10)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz (fun a => by rw [hz]; exact (Nat.zero_add _).le) y⟩),
      View.canon_unit_zero hz]
    simp only [View.readAt_eq_ld, View.ld_unit_zero (S := S1024x1024) hz, View.ld_unit_zero (S := S1024x512) hz, View.ld_unit_zero (S := S1x512) hz, View.ld_unit_zero (S := S512x512) hz, View.ld_unit_zero (S := S256x256) hz, View.ld_unit_zero (S := S1x256) hz, View.ld_unit_zero (S := S256x2) hz, View.ld_unit_zero (S := S1x2) hz]
  · iexists _; isplitr
    swap; · iexact H12
    ipureintro
    sl_unfold_words
    rw [View.read_writes_eq_canon _ _ _ (fun y => ⟨_, List.mem_singleton_self _, View.mem_set_unit_zero hz (fun a => by rw [hz]; exact (Nat.zero_add _).le) y⟩),
      View.canon_unit_zero hz]
    simp only [View.readAt_eq_ld, View.ld_unit_zero (S := S1024x1024) hz, View.ld_unit_zero (S := S1024x512) hz, View.ld_unit_zero (S := S1x512) hz, View.ld_unit_zero (S := S512x512) hz, View.ld_unit_zero (S := S256x256) hz, View.ld_unit_zero (S := S1x256) hz, View.ld_unit_zero (S := S256x2) hz, View.ld_unit_zero (S := S1x2) hz]

end Cert.KernelIdeal.Hand

end
-- ==== Proof.Data.lean ====
/-
  The pipeline over 49 blocks of 1024 instances, and the frame. The instance window and the two result windows are cut
  at the arrays' end (the last block has 848 rows inside the arrays); the ten weight and bias windows stage their whole
  arrays once. The proof data name what every staging buffer holds after the body at each point; for the frame the two
  results are forgotten, the body runs at every point from what the fetches delivered, and the thirteen argument arrays
  end as launched. Stated for any float family.
-/
import proofs.«423746_j17669495455829_3_alg».proof.Proof.Gen.KernelIdeal.Frame
import proofs.«423746_j17669495455829_3_alg».proof.Proof.Gen.KernelIdeal.Points
import proofs.«423746_j17669495455829_3_alg».proof.Proof.BodyRun
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The instance block at point `t` as the proof data names it: the rows inside the array, filled out with the zero
    word past the array's end (rows nothing reads back). -/
def xin (c : Dev nD) (t : Fin cfg0.N) : Vec F S1024x1024 .f32 :=
  win0_0.fill (grid0.coords t) (fun _ => Scalar.ofBits .f32 0#32) (iblk m c 0 t)

/-- The proof data of the pipeline on core `c`: the arrays as the region finds them; after the body at point `t` the
    instance window's buffer at its block (zero-filled past the array's end), each weight and bias window's at its whole
    array, the feature window's at the block of compressed features of that instance block and the score window's at its
    block of attention scores; the invariant the scoped rest and the generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outH (xin m c t) (iblk m c 1 t) (iblk m c 2 t)
    | ⟨12, _⟩ => outA (xin m c t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outH (xin m c t) (iblk m c 1 t) (iblk m c 2 t) := by dsimp only [dats]
theorem after0_12 (c : Dev nD) (t : Fin cfg0.N) : (dats m 0 c).after 12 t = outA (xin m c t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- The instance window is fetched at every point: its buffer holds the block on the rows inside the array and whatever
    it held elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation with the two results forgotten

For the frame nothing of what the body leaves in the two result windows is read: they are handed to the body at any
contents and taken back at any. (At the word level the first matrix product is taken at a precision the model leaves
uninterpreted, so what it makes of the rows past the array's end is not a function of the rows inside it.) -/

/-- The result windows. -/
def forgets : Fin 13 → Bool := fun w => w.val == 11 || w.val == 12

/-- What the body is called with at point `t`, the windows one by one: each input's buffer at what it then holds, each
    result's at anything. -/
def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X))

/-- And what it returns: the instance window's buffer at its block on the rows inside the array, the weights' and
    biases' at their arrays, the results' at anything. -/
def bodyPostF (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X))

/-- The zero-filled instance block, cut back to the rows inside the array, is the block. -/
theorem cut_xin (c : Dev nD) (t : Fin cfg0.N) : win0_0.cut (grid0.coords t) (xin m c t) = iblk m c 0 t :=
  win0_0.cut_fill _ _ _

set_option maxHeartbeats 1000000 in
/-- The body at any point: every input's buffer holds its block (the instance window's on the rows inside the array,
    anything past them), so the body's triple applies; the invariant and what the core owes pass through unread. -/
theorem sound_body_fgt (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, cut_xin]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X11, H11⟩, ⟨%X12, H12⟩⟩
  iapply (sound_kernel c Set.univ (grid0.coords t) _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexists _; iexact H12

/-- The library's body obligation with the two results forgotten, at every point. -/
theorem body_obligation_fgt (c : Dev nD) :
    BodyObligationLoose (dats m 0 c) (defs₀ (F := F)) Variants.none () Set.univ forgets := fun t => by
  rw [bigSep_W0, bigSep_W0]
  exact sound_body_fgt m c t

/-! ## The run and the frame -/

set_option backward.isDefEq.respectTransparency.types false in
/-- At the compiled mesh, for any values, from any memory with zero counters: every weakly fair execution of @main
    terminates, every input array of the pipeline ends unchanged, nothing is stated of the two results, and every other
    unscoped buffer ends as the region found it. -/
theorem run_fgt : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation_fgt m c).toRForget)
    (hshare := fun c => ((dats m 0 c).toRForget forgets).share_full fun _ => rfl)
    (howed := fun _ _ => rfl) (V := V m) (hmain := hmain m Variants.none) (hA := A_eq m) (hΦ := fun _ _ => rfl)

/-- The frame: the program runs, faults nowhere, and leaves its thirteen argument arrays as launched — the two the
    pipeline stages as inputs by the run's first clause, the eleven it never touches by its second. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_fgt m ρ)

end Cert.KernelIdeal.Hand

end
-- ==== Proof.Spec.lean ====
/-
  What the gated-attention network computes, row by row, on the extended reals.

  An instance row `xr` of 1024 features is compressed to `hidR`: the rectified affine image
  `max (xr · Wc + bc) 0` of 512 entries. Two branches of two affine layers each (`preR`: 512 → 256 → 256,
  no nonlinearity between the two) give the pre-activations of a tanh unit and of a logistic unit; their
  product gates 256 entries, and one more affine layer (`attR`) takes the gated row to the 2 attention scores.
  Every output row depends on its own input row only, and on the weights.

  `hOut` and `aOut` lay these rows out as the two whole result arrays over 50000 instances.
-/
import Idealize.ShloMosaic.PureOps.Ideal
import Idealize.ShloMosaic.Lib.ValueIdx

noncomputable section

namespace Cert.GatedAttn

open Idealize.ShloMosaic Idealize.ShloMosaic.ValueIdx

/-- One row of the compressed features: `max (Σ_k xr k · Wc k q + bc q) 0`. -/
def hidR (xr : Fin 1024 → EReal) (Wc : Fin 1024 → Fin 512 → EReal) (bc : Fin 512 → EReal) (q : Fin 512) : EReal :=
  max ((∑ k : Fin 1024, xr k * Wc k q) + bc q) 0

/-- One branch's pre-activation: two affine layers, `(hr · W1 + b1) · W2 + b2`, at entry `j`. -/
def preR (hr : Fin 512 → EReal) (W1 : Fin 512 → Fin 256 → EReal) (b1 : Fin 256 → EReal)
    (W2 : Fin 256 → Fin 256 → EReal) (b2 : Fin 256 → EReal) (j : Fin 256) : EReal :=
  (∑ l : Fin 256, ((∑ k : Fin 512, hr k * W1 k l) + b1 l) * W2 l j) + b2 j

/-- One row of attention scores: the tanh branch times the logistic branch, through the last affine layer. -/
def attR (hr : Fin 512 → EReal)
    (Wv1 : Fin 512 → Fin 256 → EReal) (bv1 : Fin 256 → EReal) (Wv2 : Fin 256 → Fin 256 → EReal) (bv2 : Fin 256 → EReal)
    (Wu1 : Fin 512 → Fin 256 → EReal) (bu1 : Fin 256 → EReal) (Wu2 : Fin 256 → Fin 256 → EReal) (bu2 : Fin 256 → EReal)
    (Wf : Fin 256 → Fin 2 → EReal) (bf : Fin 2 → EReal) (q : Fin 2) : EReal :=
  (∑ j : Fin 256, (Ideal.tanh (preR hr Wv1 bv1 Wv2 bv2 j) * Ideal.logistic (preR hr Wu1 bu1 Wu2 bu2 j)) * Wf j q) + bf q

/-- The row of a rank-2 index, as a number below the literal extent. -/
abbrev rowOf {n0 n1 : Nat} (i : (⟨2, ![n0, n1]⟩ : Shape).Idx) : Fin n0 := ⟨(i 0).val, idx2_lt0 i⟩
/-- Its column. -/
abbrev colOf {n0 n1 : Nat} (i : (⟨2, ![n0, n1]⟩ : Shape).Idx) : Fin n1 := ⟨(i 1).val, idx2_lt1 i⟩

/-- The compressed features of all 50000 instances. -/
def hOut (x : (⟨2, ![50000, 1024]⟩ : Shape).Idx → EReal) (Wc : (⟨2, ![1024, 512]⟩ : Shape).Idx → EReal)
    (bc : (⟨1, ![512]⟩ : Shape).Idx → EReal) : (⟨2, ![50000, 512]⟩ : Shape).Idx → EReal :=
  fun i => hidR (fun k => x (ix2 (rowOf i) k)) (fun k q => Wc (ix2 k q)) (fun q => bc (ix1 q)) (colOf i)

/-- The attention scores of all 50000 instances. -/
def aOut (x : (⟨2, ![50000, 1024]⟩ : Shape).Idx → EReal) (Wc : (⟨2, ![1024, 512]⟩ : Shape).Idx → EReal)
    (bc : (⟨1, ![512]⟩ : Shape).Idx → EReal)
    (Wv1 : (⟨2, ![512, 256]⟩ : Shape).Idx → EReal) (bv1 : (⟨1, ![256]⟩ : Shape).Idx → EReal)
    (Wv2 : (⟨2, ![256, 256]⟩ : Shape).Idx → EReal) (bv2 : (⟨1, ![256]⟩ : Shape).Idx → EReal)
    (Wu1 : (⟨2, ![512, 256]⟩ : Shape).Idx → EReal) (bu1 : (⟨1, ![256]⟩ : Shape).Idx → EReal)
    (Wu2 : (⟨2, ![256, 256]⟩ : Shape).Idx → EReal) (bu2 : (⟨1, ![256]⟩ : Shape).Idx → EReal)
    (Wf : (⟨2, ![256, 2]⟩ : Shape).Idx → EReal) (bf : (⟨1, ![2]⟩ : Shape).Idx → EReal) :
    (⟨2, ![50000, 2]⟩ : Shape).Idx → EReal :=
  fun i => attR (hidR (fun k => x (ix2 (rowOf i) k)) (fun k q => Wc (ix2 k q)) (fun q => bc (ix1 q)))
    (fun k l => Wv1 (ix2 k l)) (fun l => bv1 (ix1 l)) (fun l j => Wv2 (ix2 l j)) (fun j => bv2 (ix1 j))
    (fun k l => Wu1 (ix2 k l)) (fun l => bu1 (ix1 l)) (fun l j => Wu2 (ix2 l j)) (fun j => bu2 (ix1 j))
    (fun j q => Wf (ix2 j q)) (fun q => bf (ix1 q)) (colOf i)

end Cert.GatedAttn

end
-- ==== Proof.PayloadH.lean ====
import proofs.«423746_j17669495455829_3_alg».proof.Proof.Gen.KernelIdeal.Skeleton
import proofs.«423746_j17669495455829_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen Cert.GatedAttn

/-! ## The compression product: [1024,1024] × [1024,512] -/

/-- Row axis of the left operand: the output's row. -/
theorem lhs_mmC_0 (i : S1024x512.Idx) (c : dot_S1024x1024_S1024x512_S1024x512_1_0_0_1_n_n.contr.Idx) :
    (dot_S1024x1024_S1024x512_S1024x512_1_0_0_1_n_n.lhsIdx i c 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
/-- Column axis of the left operand: the summation position. -/
theorem lhs_mmC_1 (i : S1024x512.Idx) (c : dot_S1024x1024_S1024x512_S1024x512_1_0_0_1_n_n.contr.Idx) :
    (dot_S1024x1024_S1024x512_S1024x512_1_0_0_1_n_n.lhsIdx i c 1).val = (c ⟨0, by decide⟩).val :=
  dot_S1024x1024_S1024x512_S1024x512_1_0_0_1_n_n.lhsIdx_val_of_single rfl i c
/-- Row axis of the right operand: the summation position. -/
theorem rhs_mmC_0 (i : S1024x512.Idx) (c : dot_S1024x1024_S1024x512_S1024x512_1_0_0_1_n_n.contr.Idx) :
    (dot_S1024x1024_S1024x512_S1024x512_1_0_0_1_n_n.rhsIdx i c 0).val = (c ⟨0, by decide⟩).val :=
  dot_S1024x1024_S1024x512_S1024x512_1_0_0_1_n_n.rhsIdx_val_of_single rfl i c
/-- Column axis of the right operand: the output's column. -/
theorem rhs_mmC_1 (i : S1024x512.Idx) (c : dot_S1024x1024_S1024x512_S1024x512_1_0_0_1_n_n.contr.Idx) :
    (dot_S1024x1024_S1024x512_S1024x512_1_0_0_1_n_n.rhsIdx i c 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- Into a zero accumulator the product is the plain matrix product: entry `(p, q)` is `Σ_k A p k · B k q`. -/
theorem mmC_apply {φ₁ φ₂ : FTy} (prec : Option ContractPrecision) (A : FVec Ideal S1024x1024 φ₁) (B : FVec Ideal S1024x512 φ₂)
    (p : Fin 1024) (q : Fin 512) :
    matmul dot_S1024x1024_S1024x512_S1024x512_1_0_0_1_n_n prec A B (constant S1024x512 .f32 0x00000000#32) (ix2 p q)
      = ∑ k : Fin 1024, A (ix2 p k) * B (ix2 k q) := by
  refine (Ideal.matmul_constant_zero_apply dot_S1024x1024_S1024x512_S1024x512_1_0_0_1_n_n prec A B (ix2 p q)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k :=
    funext fun a => Fin.ext (by
      match a with
      | ⟨0, _⟩ => exact lhs_mmC_0 _ _
      | ⟨1, _⟩ => exact (lhs_mmC_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q :=
    funext fun a => Fin.ext (by
      match a with
      | ⟨0, _⟩ => exact (rhs_mmC_0 _ _).trans hk
      | ⟨1, _⟩ => exact rhs_mmC_1 _ _)
  rw [el, er]

/-- The stored block of compressed features, entry by entry: row `p` of the result is the rectified affine image
    of row `p` of the staged input block, whatever the block's other rows hold. -/
theorem pay2_apply (x0 : FVec Ideal S1024x1024 .f32) (x1 : FVec Ideal S1024x512 .f32) (x2 : FVec Ideal S1x512 .f32)
    (p : Fin 1024) (q : Fin 512) :
    k0_pay2 (F := Ideal) x0 x1 x2 (ix2 p q)
      = hidR (fun k => x0 (ix2 p k)) (fun k q => x1 (ix2 k q)) (fun q => x2 (ix2 0 q)) q := by
  unfold k0_pay2 hidR
  -- the maximum, the sum and the zero splat are entrywise; the literal zero word is the real zero
  show max (matmul dot_S1024x1024_S1024x512_S1024x512_1_0_0_1_n_n (some .fp32) x0 x1 (constant S1024x512 .f32 0x00000000#32) (ix2 p q)
        + broadcastTo S1024x512 (shapeCast S1x512 x2 shapeCasts_S1x512_S1x512) broadcasts_S1x512_S1024x512 (ix2 p q))
      (Ideal.ofBits .f32 0x00000000#32) = _
  -- the product at `(p, q)` is the row-by-column sum; the bias row is read at column `q` whatever the row
  rw [Ideal.ofBits_zero_f32, mmC_apply, shapeCast_self, broadcastTo_1b_ab_apply]

end Cert.KernelIdeal.Hand

end
-- ==== Proof.PayloadA.lean ====
import proofs.«423746_j17669495455829_3_alg».proof.Proof.Gen.KernelIdeal.Skeleton
import proofs.«423746_j17669495455829_3_alg».proof.Proof.Spec
import proofs.«423746_j17669495455829_3_alg».proof.Proof.PayloadH
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen Cert.GatedAttn

/-! ## The merged first-layer product: [1024,512] × [512,512] -/

/-- Row axis of the left operand: the output's row. -/
theorem lhs_mmP_0 (i : S1024x512.Idx) (c : dot_S1024x512_S512x512_S1024x512_1_0_0_1_n_n.contr.Idx) :
    (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- Column axis of the left operand: the summation position. -/
theorem lhs_mmP_1 (i : S1024x512.Idx) (c : dot_S1024x512_S512x512_S1024x512_1_0_0_1_n_n.contr.Idx) :
    (dot_S1024x512_S512x512_S1024x512_1_0_0_1_n_n.lhsIdx i c 1).val = (c ⟨0, by decide⟩).val :=
  dot_S1024x512_S512x512_S1024x512_1_0_0_1_n_n.lhsIdx_val_of_single rfl i c
/-- Row axis of the right operand: the summation position. -/
theorem rhs_mmP_0 (i : S1024x512.Idx) (c : dot_S1024x512_S512x512_S1024x512_1_0_0_1_n_n.contr.Idx) :
    (dot_S1024x512_S512x512_S1024x512_1_0_0_1_n_n.rhsIdx i c 0).val = (c ⟨0, by decide⟩).val :=
  dot_S1024x512_S512x512_S1024x512_1_0_0_1_n_n.rhsIdx_val_of_single rfl i c
/-- Column axis of the right operand: the output's column. -/
theorem rhs_mmP_1 (i : S1024x512.Idx) (c : dot_S1024x512_S512x512_S1024x512_1_0_0_1_n_n.contr.Idx) :
    (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- Into a zero accumulator the product is the plain matrix product: entry `(p, q)` is `Σ_k A p k · B k q`. -/
theorem mmP_apply {φ₁ φ₂ : FTy} (prec : Option ContractPrecision) (A : FVec Ideal S1024x512 φ₁) (B : FVec Ideal S512x512 φ₂)
    (p : Fin 1024) (q : Fin 512) :
    matmul dot_S1024x512_S512x512_S1024x512_1_0_0_1_n_n prec A B (constant S1024x512 .f32 0x00000000#32) (ix2 p q)
      = ∑ k : Fin 512, A (ix2 p k) * B (ix2 k q) := by
  refine (Ideal.matmul_constant_zero_apply dot_S1024x512_S512x512_S1024x512_1_0_0_1_n_n prec A B (ix2 p q)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k :=
    funext fun a => Fin.ext (by
      match a with
      | ⟨0, _⟩ => exact lhs_mmP_0 _ _
      | ⟨1, _⟩ => exact (lhs_mmP_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q :=
    funext fun a => Fin.ext (by
      match a with
      | ⟨0, _⟩ => exact (rhs_mmP_0 _ _).trans hk
      | ⟨1, _⟩ => exact rhs_mmP_1 _ _)
  rw [el, er]

/-! ## A branch's second-layer product: [1024,256] × [256,256] -/

/-- Row axis of the left operand: the output's row. -/
theorem lhs_mmB_0 (i : S1024x256.Idx) (c : dot_S1024x256_S256x256_S1024x256_1_0_0_1_n_n.contr.Idx) :
    (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
/-- Column axis of the left operand: the summation position. -/
theorem lhs_mmB_1 (i : S1024x256.Idx) (c : dot_S1024x256_S256x256_S1024x256_1_0_0_1_n_n.contr.Idx) :
    (dot_S1024x256_S256x256_S1024x256_1_0_0_1_n_n.lhsIdx i c 1).val = (c ⟨0, by decide⟩).val :=
  dot_S1024x256_S256x256_S1024x256_1_0_0_1_n_n.lhsIdx_val_of_single rfl i c
/-- Row axis of the right operand: the summation position. -/
theorem rhs_mmB_0 (i : S1024x256.Idx) (c : dot_S1024x256_S256x256_S1024x256_1_0_0_1_n_n.contr.Idx) :
    (dot_S1024x256_S256x256_S1024x256_1_0_0_1_n_n.rhsIdx i c 0).val = (c ⟨0, by decide⟩).val :=
  dot_S1024x256_S256x256_S1024x256_1_0_0_1_n_n.rhsIdx_val_of_single rfl i c
/-- Column axis of the right operand: the output's column. -/
theorem rhs_mmB_1 (i : S1024x256.Idx) (c : dot_S1024x256_S256x256_S1024x256_1_0_0_1_n_n.contr.Idx) :
    (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- Into a zero accumulator the product is the plain matrix product: entry `(p, q)` is `Σ_k A p k · B k q`. -/
theorem mmB_apply {φ₁ φ₂ : FTy} (prec : Option ContractPrecision) (A : FVec Ideal S1024x256 φ₁) (B : FVec Ideal S256x256 φ₂)
    (p : Fin 1024) (q : Fin 256) :
    matmul dot_S1024x256_S256x256_S1024x256_1_0_0_1_n_n prec A B (constant S1024x256 .f32 0x00000000#32) (ix2 p q)
      = ∑ k : Fin 256, A (ix2 p k) * B (ix2 k q) := by
  refine (Ideal.matmul_constant_zero_apply dot_S1024x256_S256x256_S1024x256_1_0_0_1_n_n prec A B (ix2 p q)).trans ?_
  rw [← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k :=
    funext fun a => Fin.ext (by
      match a with
      | ⟨0, _⟩ => exact lhs_mmB_0 _ _
      | ⟨1, _⟩ => exact (lhs_mmB_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q :=
    funext fun a => Fin.ext (by
      match a with
      | ⟨0, _⟩ => exact (rhs_mmB_0 _ _).trans hk
      | ⟨1, _⟩ => exact rhs_mmB_1 _ _)
  rw [el, er]

/-! ## The score product: [1024,256] × [256,2] -/

/-- Row axis of the left operand: the output's row. -/
theorem lhs_mmF_0 (i : S1024x2.Idx) (c : dot_S1024x256_S256x2_S1024x2_1_0_0_1_n_n.contr.Idx) :
    (dot_S1024x256_S256x2_S1024x2_1_0_0_1_n_n.lhsIdx i c 0).val = (i 0).val := by
  unfold DotDims.lhsIdx
  rw [dif_neg (show ¬(0 : Fin S1024x256.rank) ∈ dot_S1024x256_S256x2_S1024x2_1_0_0_1_n_n.lhsBatch by decide),
    dif_pos (show (0 : Fin S1024x256.rank) ∈ dot_S1024x256_S256x2_S1024x2_1_0_0_1_n_n.lhsNonContracting by decide)]
  rfl
/-- Column axis of the left operand: the summation position. -/
theorem lhs_mmF_1 (i : S1024x2.Idx) (c : dot_S1024x256_S256x2_S1024x2_1_0_0_1_n_n.contr.Idx) :
    (dot_S1024x256_S256x2_S1024x2_1_0_0_1_n_n.lhsIdx i c 1).val = (c ⟨0, by decide⟩).val :=
  dot_S1024x256_S256x2_S1024x2_1_0_0_1_n_n.lhsIdx_val_of_single rfl i c
/-- Row axis of the right operand: the summation position. -/
theorem rhs_mmF_0 (i : S1024x2.Idx) (c : dot_S1024x256_S256x2_S1024x2_1_0_0_1_n_n.contr.Idx) :
    (dot_S1024x256_S256x2_S1024x2_1_0_0_1_n_n.rhsIdx i c 0).val = (c ⟨0, by decide⟩).val :=
  dot_S1024x256_S256x2_S1024x2_1_0_0_1_n_n.rhsIdx_val_of_single rfl i c
/-- Column axis of the right operand: the output's column. -/
theorem rhs_mmF_1 (i : S1024x2.Idx) (c : dot_S1024x256_S256x2_S1024x2_1_0_0_1_n_n.contr.Idx) :
    (dot_S1024x256_S256x2_S1024x2_1_0_0_1_n_n.rhsIdx i c 1).val = (i 1).val := by
  unfold DotDims.rhsIdx
  rw [dif_neg (show ¬(1 : Fin S256x2.rank) ∈ dot_S1024x256_S256x2_S1024x2_1_0_0_1_n_n.rhsBatch by decide),
    dif_pos (show (1 : Fin S256x2.rank) ∈ dot_S1024x256_S256x2_S1024x2_1_0_0_1_n_n.rhsNonContracting by decide)]
  rfl

/-- Into a zero accumulator the product is the plain matrix product: entry `(p, q)` is `Σ_k A p k · B k q`. -/
theorem mmF_apply {φ₁ φ₂ : FTy} (prec : Option ContractPrecision) (A : FVec Ideal S1024x256 φ₁) (B : FVec Ideal S256x2 φ₂)
    (p : Fin 1024) (q : Fin 2) :
    matmul dot_S1024x256_S256x2_S1024x2_1_0_0_1_n_n prec A B (constant S1024x2 .f32 0x00000000#32) (ix2 p q)
      = ∑ k : Fin 256, A (ix2 p k) * B (ix2 k q) := by
  refine (Ideal.matmul_constant_zero_apply dot_S1024x256_S256x2_S1024x2_1_0_0_1_n_n prec A B (ix2 p q)).trans ?_
  rw [← Equiv.sum_comp (ValueIdx.contrEquiv1 dot_S1024x256_S256x2_S1024x2_1_0_0_1_n_n 256 rfl rfl).symm]
  refine Finset.sum_congr rfl fun k _ => ?_
  have hk := ValueIdx.contrEquiv1_symm_val dot_S1024x256_S256x2_S1024x2_1_0_0_1_n_n 256 rfl rfl k
  have el : dot_S1024x256_S256x2_S1024x2_1_0_0_1_n_n.lhsIdx (ix2 p q) ((ValueIdx.contrEquiv1 dot_S1024x256_S256x2_S1024x2_1_0_0_1_n_n 256 rfl rfl).symm k) = ix2 p k :=
    funext fun a => Fin.ext (by
      match a with
      | ⟨0, _⟩ => exact lhs_mmF_0 _ _
      | ⟨1, _⟩ => exact (lhs_mmF_1 _ _).trans hk)
  have er : dot_S1024x256_S256x2_S1024x2_1_0_0_1_n_n.rhsIdx (ix2 p q) ((ValueIdx.contrEquiv1 dot_S1024x256_S256x2_S1024x2_1_0_0_1_n_n 256 rfl rfl).symm k) = ix2 k q :=
    funext fun a => Fin.ext (by
      match a with
      | ⟨0, _⟩ => exact (rhs_mmF_0 _ _).trans hk
      | ⟨1, _⟩ => exact rhs_mmF_1 _ _)
  rw [el, er]

/-! ## The payloads at an index -/

/-- The merged first layer: entry `(p, c)` is the affine image, by column `c` of the merged weights, of the compressed
    features of row `p`. (The narrowing of the left operand changes nothing on the extended reals.) -/
theorem pay3_apply (x0 : FVec Ideal S1024x1024 .f32) (x1 : FVec Ideal S1024x512 .f32) (x2 : FVec Ideal S1x512 .f32)
    (x3 : FVec Ideal S512x512 .bf16) (x4 : FVec Ideal S1x512 .f32) (p : Fin 1024) (c : Fin 512) :
    k0_pay3 (F := Ideal) x0 x1 x2 x3 x4 (ix2 p c)
      = (∑ k : Fin 512, hidR (fun k => x0 (ix2 p k)) (fun k q => x1 (ix2 k q)) (fun q => x2 (ix2 0 q)) k * x3 (ix2 k c)) + x4 (ix2 0 c) := by
  unfold k0_pay3
  show matmul dot_S1024x512_S512x512_S1024x512_1_0_0_1_n_n none (truncf .bf16 (k0_pay2 (F := Ideal) x0 x1 x2) bitsLt_bf16_f32)
        (shapeCast S512x512 x3 shapeCasts_S512x512_S512x512) (constant S1024x512 .f32 0x00000000#32) (ix2 p c)
      + broadcastTo S1024x512 (shapeCast S1x512 x4 shapeCasts_S1x512_S1x512) broadcasts_S1x512_S1024x512 (ix2 p c) = _
  rw [mmP_apply, shapeCast_self, shapeCast_self, broadcastTo_1b_ab_apply]
  refine congrArg (· + x4 (ix2 0 c)) (Finset.sum_congr rfl fun k _ => ?_)
  show k0_pay2 (F := Ideal) x0 x1 x2 (ix2 p k) * x3 (ix2 k c) = _
  rw [pay2_apply]

/-- The tanh branch's pre-activation: the first 256 columns of the merged first layer, through the branch's second
    affine layer. -/
theorem pay4_apply (x0 : FVec Ideal S1024x1024 .f32) (x1 : FVec Ideal S1024x512 .f32) (x2 : FVec Ideal S1x512 .f32)
    (x3 : FVec Ideal S512x512 .bf16) (x4 : FVec Ideal S1x512 .f32) (x5 : FVec Ideal S256x256 .bf16) (x6 : FVec Ideal S1x256 .f32)
    (p : Fin 1024) (j : Fin 256) :
    k0_pay4 (F := Ideal) x0 x1 x2 x3 x4 x5 x6 (ix2 p j)
      = preR (hidR (fun k => x0 (ix2 p k)) (fun k q => x1 (ix2 k q)) (fun q => x2 (ix2 0 q)))
          (fun k l => x3 (ix2 k (⟨l.val, by omega⟩ : Fin 512))) (fun l => x4 (ix2 0 (⟨l.val, by omega⟩ : Fin 512)))
          (fun l j => x5 (ix2 l j)) (fun j => x6 (ix2 0 j)) j := by
  unfold k0_pay4 preR
  show matmul dot_S1024x256_S256x256_S1024x256_1_0_0_1_n_n none
        (truncf .bf16 (extractStridedSlice S1024x256 ![0, 0] (k0_pay3 (F := Ideal) x0 x1 x2 x3 x4) slices_S1024x512_o0_0_S1024x256) bitsLt_bf16_f32)
        (shapeCast S256x256 x5 shapeCasts_S256x256_S256x256) (constant S1024x256 .f32 0x00000000#32) (ix2 p j)
      + broadcastTo S1024x256 (shapeCast S1x256 x6 shapeCasts_S1x256_S1x256) broadcasts_S1x256_S1024x256 (ix2 p j) = _
  rw [mmB_apply, shapeCast_self, shapeCast_self, broadcastTo_1b_ab_apply]
  refine congrArg (· + x6 (ix2 0 j)) (Finset.sum_congr rfl fun l _ => ?_)
  refine congrArg (· * x5 (ix2 l j)) ?_
  show extractStridedSlice S1024x256 ![0, 0] (k0_pay3 (F := Ideal) x0 x1 x2 x3 x4) slices_S1024x512_o0_0_S1024x256 (ix2 p l) = _
  -- column `l` of the cut is column `0 + l` of the merged layer
  rw [slice2_axis1_apply 0 _ _ p l (⟨l.val, by omega⟩ : Fin 512) (Nat.zero_add _).symm, pay3_apply]

/-- The logistic branch before its last bias: the last 256 columns of the merged first layer, through the branch's
    second product. -/
theorem pay5_apply (x0 : FVec Ideal S1024x1024 .f32) (x1 : FVec Ideal S1024x512 .f32) (x2 : FVec Ideal S1x512 .f32)
    (x3 : FVec Ideal S512x512 .bf16) (x4 : FVec Ideal S1x512 .f32) (x7 : FVec Ideal S256x256 .bf16)
    (p : Fin 1024) (j : Fin 256) :
    k0_pay5 (F := Ideal) x0 x1 x2 x3 x4 x7 (ix2 p j)
      = ∑ l : Fin 256, ((∑ k : Fin 512, hidR (fun k => x0 (ix2 p k)) (fun k q => x1 (ix2 k q)) (fun q => x2 (ix2 0 q)) k * x3 (ix2 k (⟨256 + l.val, by omega⟩ : Fin 512)))
            + x4 (ix2 0 (⟨256 + l.val, by omega⟩ : Fin 512))) * x7 (ix2 l j) := by
  unfold k0_pay5
  show matmul dot_S1024x256_S256x256_S1024x256_1_0_0_1_n_n none
        (truncf .bf16 (extractStridedSlice S1024x256 ![0, 256] (k0_pay3 (F := Ideal) x0 x1 x2 x3 x4) slices_S1024x512_o0_256_S1024x256) bitsLt_bf16_f32)
        (shapeCast S256x256 x7 shapeCasts_S256x256_S256x256) (constant S1024x256 .f32 0x00000000#32) (ix2 p j) = _
  rw [mmB_apply, shapeCast_self]
  refine Finset.sum_congr rfl fun l _ => ?_
  refine congrArg (· * x7 (ix2 l j)) ?_
  show extractStridedSlice S1024x256 ![0, 256] (k0_pay3 (F := Ideal) x0 x1 x2 x3 x4) slices_S1024x512_o0_256_S1024x256 (ix2 p l) = _
  -- column `l` of the cut is column `256 + l` of the merged layer
  rw [slice2_axis1_apply 256 _ _ p l (⟨256 + l.val, by omega⟩ : Fin 512) rfl, pay3_apply]

/-- The last payload over ANY two pre-activation blocks: the gate `tanh · logistic` is entrywise, the logistic
    branch's bias is added inside it, and the score layer is one more affine map. -/
theorem pay1_gate (v26 v31 : FVec Ideal S1024x256 .f32) (x8 : FVec Ideal S1x256 .f32) (x9 : FVec Ideal S256x2 .bf16)
    (x10 : FVec Ideal S1x2 .f32) (p : Fin 1024) (q : Fin 2) :
    k0_pay1 (F := Ideal) v26 v31 x8 x9 x10 (ix2 p q)
      = (∑ j : Fin 256, (Ideal.tanh (v26 (ix2 p j)) * Ideal.logistic (v31 (ix2 p j) + x8 (ix2 0 j))) * x9 (ix2 j q))
          + x10 (ix2 0 q) := by
  unfold k0_pay1
  show matmul dot_S1024x256_S256x2_S1024x2_1_0_0_1_n_n none
        (truncf .bf16 (mulf (tanh v26) (logistic (addf v31
          (broadcastTo S1024x256 (shapeCast S1x256 x8 shapeCasts_S1x256_S1x256) broadcasts_S1x256_S1024x256)))) bitsLt_bf16_f32)
        (shapeCast S256x2 x9 shapeCasts_S256x2_S256x2) (constant S1024x2 .f32 0x00000000#32) (ix2 p q)
      + broadcastTo S1024x2 (shapeCast S1x2 x10 shapeCasts_S1x2_S1x2) broadcasts_S1x2_S1024x2 (ix2 p q) = _
  rw [mmF_apply, shapeCast_self, shapeCast_self, shapeCast_self, broadcastTo_1b_ab_apply]
  refine congrArg (· + x10 (ix2 0 q)) (Finset.sum_congr rfl fun j _ => ?_)
  refine congrArg (· * x9 (ix2 j q)) ?_
  show Ideal.tanh (v26 (ix2 p j))
      * Ideal.logistic (v31 (ix2 p j) + broadcastTo S1024x256 x8 broadcasts_S1x256_S1024x256 (ix2 p j)) = _
  rw [broadcastTo_1b_ab_apply]

/-- The stored block of attention scores, entry by entry: row `p` is the gated two-branch network applied to the
    compressed features of row `p` of the staged input block; the merged first-layer weights split by columns
    (the first 256 feed the tanh branch, the last 256 the logistic branch). -/
theorem pay1_apply (x0 : FVec Ideal S1024x1024 .f32) (x1 : FVec Ideal S1024x512 .f32) (x2 : FVec Ideal S1x512 .f32)
    (x3 : FVec Ideal S512x512 .bf16) (x4 : FVec Ideal S1x512 .f32) (x5 : FVec Ideal S256x256 .bf16) (x6 : FVec Ideal S1x256 .f32)
    (x7 : FVec Ideal S256x256 .bf16) (x8 : FVec Ideal S1x256 .f32) (x9 : FVec Ideal S256x2 .bf16) (x10 : FVec Ideal S1x2 .f32)
    (p : Fin 1024) (q : Fin 2) :
    k0_pay1 (F := Ideal) (k0_pay4 x0 x1 x2 x3 x4 x5 x6) (k0_pay5 x0 x1 x2 x3 x4 x7) x8 x9 x10 (ix2 p q)
      = attR (hidR (fun k => x0 (ix2 p k)) (fun k q => x1 (ix2 k q)) (fun q => x2 (ix2 0 q)))
          (fun k l => x3 (ix2 k (⟨l.val, by omega⟩ : Fin 512))) (fun l => x4 (ix2 0 (⟨l.val, by omega⟩ : Fin 512)))
          (fun l j => x5 (ix2 l j)) (fun j => x6 (ix2 0 j))
          (fun k l => x3 (ix2 k (⟨256 + l.val, by omega⟩ : Fin 512))) (fun l => x4 (ix2 0 (⟨256 + l.val, by omega⟩ : Fin 512)))
          (fun l j => x7 (ix2 l j)) (fun j => x8 (ix2 0 j))
          (fun j q => x9 (ix2 j q)) (fun q => x10 (ix2 0 q)) q := by
  refine (pay1_gate _ _ x8 x9 x10 p q).trans ?_
  unfold attR
  refine congrArg (· + x10 (ix2 0 q)) (Finset.sum_congr rfl fun j _ => ?_)
  -- the two blocks at `(p, j)` are the two branches' pre-activations of row `p`, the logistic one short of its bias
  rw [pay4_apply, pay5_apply]
  rfl

end Cert.KernelIdeal.Hand

end
-- ==== Proof.HostPrep.lean ====
import proofs.«423746_j17669495455829_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! What the weight and bias windows' arrays hold when the region is entered: the host has merged the two
    first-layer weight matrices side by side and the two first-layer biases end to end, changed float formats
    (the identity on the extended reals) and given every bias a leading unit axis. Read entry by entry. -/

theorem V_v5_apply (c : Dev nD) (q : Fin 512) :
    (V m c main_v5 : S1x512.Idx → EReal) (ix2 0 q) = (m ((c : Thread nD τ).loc main_arg2) : S512.Idx → EReal) (ix1 q) := by
  -- the array is the first-layer feature bias with a leading unit axis
  have e : (V m c main_v5 : S1x512.Idx → EReal)
      = shapeCast S1x512 (m ((c : Thread nD τ).loc main_arg2) : S512.Idx → EReal) shapeCasts_S512_S1x512 := by
    dsimp only [Gen.V, Gen.hostOps0]; after_results; rfl
  exact (congrFun e _).trans (shapeCast_a_1a_apply _ _ 0 q)

/-- The two first-layer weight matrices side by side, in the narrower float format. -/
private theorem V_v1_eq (c : Dev nD) :
    (V m c main_v1 : S512x512.Idx → EReal)
      = (truncf .bf16 (concatenate S512x512 1
          [⟨S512x256, (m ((c : Thread nD τ).loc main_arg3) : S512x256.Idx → EReal)⟩,
           ⟨S512x256, (m ((c : Thread nD τ).loc main_arg7) : S512x256.Idx → EReal)⟩]
          concatenates_S512x256_S512x256_S512x512_d1 : FVec Ideal S512x512 .f32) bitsLt_bf16_f32 : FVec Ideal S512x512 .bf16) := by
  dsimp only [Gen.V, Gen.hostOps0]; after_results

theorem V_v1_left (c : Dev nD) (k : Fin 512) (l : Fin 256) :
    (V m c main_v1 : S512x512.Idx → EReal) (ix2 k (⟨l.val, by omega⟩ : Fin 512))
      = (m ((c : Thread nD τ).loc main_arg3) : S512x256.Idx → EReal) (ix2 k l) := by
  refine (congrFun (V_v1_eq m c) _).trans ((truncf_apply (φ := .f32) (ψ := .bf16) _ bitsLt_bf16_f32 _).trans ?_)
  -- a column below 256 lies in the first matrix, at the same place
  refine concatenate_pair_apply_left (t := S512x512) (s₁ := S512x256) (s₂ := S512x256) (1 : Fin 2) _ _ _ _ rfl (ix2 k l)
    (fun b => ?_)
  match b with
  | ⟨0, _⟩ => rfl
  | ⟨1, _⟩ => rfl

theorem V_v1_right (c : Dev nD) (k : Fin 512) (l : Fin 256) :
    (V m c main_v1 : S512x512.Idx → EReal) (ix2 k (⟨256 + l.val, by omega⟩ : Fin 512))
      = (m ((c : Thread nD τ).loc main_arg7) : S512x256.Idx → EReal) (ix2 k l) := by
  refine (congrFun (V_v1_eq m c) _).trans ((truncf_apply (φ := .f32) (ψ := .bf16) _ bitsLt_bf16_f32 _).trans ?_)
  -- a column from 256 on lies in the second matrix, 256 columns earlier
  refine concatenate_pair_apply_right (t := S512x512) (s₁ := S512x256) (s₂ := S512x256) (1 : Fin 2) _ _ _ _ rfl rfl (ix2 k l)
    (fun b hb => ?_) ?_
  · match b with
    | ⟨0, _⟩ => rfl
    | ⟨1, _⟩ => exact absurd rfl hb
  · show l.val + 256 = 256 + l.val
    omega

/-- The two first-layer biases end to end, with a leading unit axis. -/
private theorem V_v7_eq (c : Dev nD) :
    (V m c main_v7 : S1x512.Idx → EReal)
      = shapeCast S1x512 (concatenate S512 0
          [⟨S256, (m ((c : Thread nD τ).loc main_arg4) : S256.Idx → EReal)⟩,
           ⟨S256, (m ((c : Thread nD τ).loc main_arg8) : S256.Idx → EReal)⟩]
          concatenates_S256_S256_S512_d0 : S512.Idx → EReal) shapeCasts_S512_S1x512 := by
  dsimp only [Gen.V, Gen.hostOps0]; after_results; rfl

theorem V_v7_left (c : Dev nD) (l : Fin 256) :
    (V m c main_v7 : S1x512.Idx → EReal) (ix2 0 (⟨l.val, by omega⟩ : Fin 512))
      = (m ((c : Thread nD τ).loc main_arg4) : S256.Idx → EReal) (ix1 l) := by
  refine (congrFun (V_v7_eq m c) _).trans ((shapeCast_a_1a_apply _ _ 0 _).trans ?_)
  -- a position below 256 lies in the first bias, at the same place
  refine concatenate_pair_apply_left (t := S512) (s₁ := S256) (s₂ := S256) (0 : Fin 1) _ _ _ _ rfl (ix1 l)
    (fun b => ?_)
  match b with
  | ⟨0, _⟩ => rfl

theorem V_v7_right (c : Dev nD) (l : Fin 256) :
    (V m c main_v7 : S1x512.Idx → EReal) (ix2 0 (⟨256 + l.val, by omega⟩ : Fin 512))
      = (m ((c : Thread nD τ).loc main_arg8) : S256.Idx → EReal) (ix1 l) := by
  refine (congrFun (V_v7_eq m c) _).trans ((shapeCast_a_1a_apply _ _ 0 _).trans ?_)
  -- a position from 256 on lies in the second bias, 256 places earlier
  refine concatenate_pair_apply_right (t := S512) (s₁ := S256) (s₂ := S256) (0 : Fin 1) _ _ _ _ rfl rfl (ix1 l)
    (fun b hb => ?_) ?_
  · match b with
    | ⟨0, _⟩ => exact absurd rfl hb
  · show l.val + 256 = 256 + l.val
    omega

theorem V_v2_apply (c : Dev nD) (l j : Fin 256) :
    (V m c main_v2 : S256x256.Idx → EReal) (ix2 l j) = (m ((c : Thread nD τ).loc main_arg5) : S256x256.Idx → EReal) (ix2 l j) := by
  -- the array is the second-layer weight matrix in the narrower float format
  have e : (V m c main_v2 : S256x256.Idx → EReal)
      = (truncf .bf16 (m ((c : Thread nD τ).loc main_arg5) : FVec Ideal S256x256 .f32) bitsLt_bf16_f32 : FVec Ideal S256x256 .bf16) := by
    dsimp only [Gen.V, Gen.hostOps0]; after_results
  exact (congrFun e _).trans (truncf_apply _ _ _)

theorem V_v8_apply (c : Dev nD) (j : Fin 256) :
    (V m c main_v8 : S1x256.Idx → EReal) (ix2 0 j) = (m ((c : Thread nD τ).loc main_arg6) : S256.Idx → EReal) (ix1 j) := by
  have e : (V m c main_v8 : S1x256.Idx → EReal)
      = shapeCast S1x256 (m ((c : Thread nD τ).loc main_arg6) : S256.Idx → EReal) shapeCasts_S256_S1x256 := by
    dsimp only [Gen.V, Gen.hostOps0]; after_results; rfl
  exact (congrFun e _).trans (shapeCast_a_1a_apply _ _ 0 j)

theorem V_v3_apply (c : Dev nD) (l j : Fin 256) :
    (V m c main_v3 : S256x256.Idx → EReal) (ix2 l j) = (m ((c : Thread nD τ).loc main_arg9) : S256x256.Idx → EReal) (ix2 l j) := by
  have e : (V m c main_v3 : S256x256.Idx → EReal)
      = (truncf .bf16 (m ((c : Thread nD τ).loc main_arg9) : FVec Ideal S256x256 .f32) bitsLt_bf16_f32 : FVec Ideal S256x256 .bf16) := by
    dsimp only [Gen.V, Gen.hostOps0]; after_results
  exact (congrFun e _).trans (truncf_apply _ _ _)

theorem V_v9_apply (c : Dev nD) (j : Fin 256) :
    (V m c main_v9 : S1x256.Idx → EReal) (ix2 0 j) = (m ((c : Thread nD τ).loc main_arg10) : S256.Idx → EReal) (ix1 j) := by
  have e : (V m c main_v9 : S1x256.Idx → EReal)
      = shapeCast S1x256 (m ((c : Thread nD τ).loc main_arg10) : S256.Idx → EReal) shapeCasts_S256_S1x256 := by
    dsimp only [Gen.V, Gen.hostOps0]; after_results; rfl
  exact (congrFun e _).trans (shapeCast_a_1a_apply _ _ 0 j)

theorem V_v4_apply (c : Dev nD) (j : Fin 256) (q : Fin 2) :
    (V m c main_v4 : S256x2.Idx → EReal) (ix2 j q) = (m ((c : Thread nD τ).loc main_arg11) : S256x2.Idx → EReal) (ix2 j q) := by
  have e : (V m c main_v4 : S256x2.Idx → EReal)
      = (truncf .bf16 (m ((c : Thread nD τ).loc main_arg11) : FVec Ideal S256x2 .f32) bitsLt_bf16_f32 : FVec Ideal S256x2 .bf16) := by
    dsimp only [Gen.V, Gen.hostOps0]; after_results
  exact (congrFun e _).trans (truncf_apply _ _ _)

theorem V_v10_apply (c : Dev nD) (q : Fin 2) :
    (V m c main_v10 : S1x2.Idx → EReal) (ix2 0 q) = (m ((c : Thread nD τ).loc main_arg12) : S2.Idx → EReal) (ix1 q) := by
  have e : (V m c main_v10 : S1x2.Idx → EReal)
      = shapeCast S1x2 (m ((c : Thread nD τ).loc main_arg12) : S2.Idx → EReal) shapeCasts_S2_S1x2 := by
    dsimp only [Gen.V, Gen.hostOps0]; after_results; rfl
  exact (congrFun e _).trans (shapeCast_a_1a_apply _ _ 0 q)

end Cert.KernelIdeal.Hand

end
-- ==== Proof.Blocks.lean ====
import proofs.«423746_j17669495455829_3_alg».proof.Proof.Gen.KernelIdeal.Frame
import proofs.«423746_j17669495455829_3_alg».proof.Proof.Gen.KernelIdeal.Points
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ)

/-! ## The block index at each point, decided once over the grid

The three cut windows move along the rows with the point and never along the columns; the ten whole-array windows
stay at block index `(0, 0)`. -/

private theorem index0_0 : ∀ t : Fin cfg0.N, win0_0.index t 0 = t.val :=
  (by decide +kernel : ∀ t : Fin grid0.N, win0_0.index t 0 = t.val)
private theorem index0_1 : ∀ t : Fin cfg0.N, win0_0.index t 1 = 0 :=
  (by decide +kernel : ∀ t : Fin grid0.N, win0_0.index t 1 = 0)
private theorem index11_0 : ∀ t : Fin cfg0.N, win0_11.index t 0 = t.val :=
  (by decide +kernel : ∀ t : Fin grid0.N, win0_11.index t 0 = t.val)
private theorem index11_1 : ∀ t : Fin cfg0.N, win0_11.index t 1 = 0 :=
  (by decide +kernel : ∀ t : Fin grid0.N, win0_11.index t 1 = 0)
private theorem index12_0 : ∀ t : Fin cfg0.N, win0_12.index t 0 = t.val :=
  (by decide +kernel : ∀ t : Fin grid0.N, win0_12.index t 0 = t.val)
private theorem index12_1 : ∀ t : Fin cfg0.N, win0_12.index t 1 = 0 :=
  (by decide +kernel : ∀ t : Fin grid0.N, win0_12.index t 1 = 0)
private theorem index1 : ∀ t : Fin cfg0.N, ∀ a, win0_1.index t a = 0 :=
  (by decide +kernel : ∀ t : Fin grid0.N, ∀ a, win0_1.index t a = 0)
private theorem index2 : ∀ t : Fin cfg0.N, ∀ a, win0_2.index t a = 0 :=
  (by decide +kernel : ∀ t : Fin grid0.N, ∀ a, win0_2.index t a = 0)
private theorem index3 : ∀ t : Fin cfg0.N, ∀ a, win0_3.index t a = 0 :=
  (by decide +kernel : ∀ t : Fin grid0.N, ∀ a, win0_3.index t a = 0)
private theorem index4 : ∀ t : Fin cfg0.N, ∀ a, win0_4.index t a = 0 :=
  (by decide +kernel : ∀ t : Fin grid0.N, ∀ a, win0_4.index t a = 0)
private theorem index5 : ∀ t : Fin cfg0.N, ∀ a, win0_5.index t a = 0 :=
  (by decide +kernel : ∀ t : Fin grid0.N, ∀ a, win0_5.index t a = 0)
private theorem index6 : ∀ t : Fin cfg0.N, ∀ a, win0_6.index t a = 0 :=
  (by decide +kernel : ∀ t : Fin grid0.N, ∀ a, win0_6.index t a = 0)
private theorem index7 : ∀ t : Fin cfg0.N, ∀ a, win0_7.index t a = 0 :=
  (by decide +kernel : ∀ t : Fin grid0.N, ∀ a, win0_7.index t a = 0)
private theorem index8 : ∀ t : Fin cfg0.N, ∀ a, win0_8.index t a = 0 :=
  (by decide +kernel : ∀ t : Fin grid0.N, ∀ a, win0_8.index t a = 0)
private theorem index9 : ∀ t : Fin cfg0.N, ∀ a, win0_9.index t a = 0 :=
  (by decide +kernel : ∀ t : Fin grid0.N, ∀ a, win0_9.index t a = 0)
private theorem index10 : ∀ t : Fin cfg0.N, ∀ a, win0_10.index t a = 0 :=
  (by decide +kernel : ∀ t : Fin grid0.N, ∀ a, win0_10.index t a = 0)

/-! ## The rows a point's blocks hold

The grid has 49 points; point `t` works on rows `1024 t … 1024 t + 1023` of the 50000 instances, so the last point's
blocks overhang the arrays by 176 rows and its transfers move 848 rows only. The columns are never cut. -/

/-- The rows of the instance block that lie inside the array at point `t`. -/
theorem xsize0_rows (t : Fin cfg0.N) : win0_0.xsize (grid0.coords t) 0 = min 1024 (50000 - 1024 * t.val) := by
  exact (by decide +kernel : ∀ t : Fin grid0.N, win0_0.xsize (grid0.coords t) 0 = min 1024 (50000 - 1024 * t.val)) t
theorem xsize0_cols (t : Fin cfg0.N) : win0_0.xsize (grid0.coords t) 1 = 1024 := by
  exact (by decide +kernel : ∀ t : Fin grid0.N, win0_0.xsize (grid0.coords t) 1 = 1024) t
theorem xsize11_rows (t : Fin cfg0.N) : win0_11.xsize (grid0.coords t) 0 = min 1024 (50000 - 1024 * t.val) := by
  exact (by decide +kernel : ∀ t : Fin grid0.N, win0_11.xsize (grid0.coords t) 0 = min 1024 (50000 - 1024 * t.val)) t
theorem xsize11_cols (t : Fin cfg0.N) : win0_11.xsize (grid0.coords t) 1 = 512 := by
  exact (by decide +kernel : ∀ t : Fin grid0.N, win0_11.xsize (grid0.coords t) 1 = 512) t
theorem xsize12_rows (t : Fin cfg0.N) : win0_12.xsize (grid0.coords t) 0 = min 1024 (50000 - 1024 * t.val) := by
  exact (by decide +kernel : ∀ t : Fin grid0.N, win0_12.xsize (grid0.coords t) 0 = min 1024 (50000 - 1024 * t.val)) t
theorem xsize12_cols (t : Fin cfg0.N) : win0_12.xsize (grid0.coords t) 1 = 2 := by
  exact (by decide +kernel : ∀ t : Fin grid0.N, win0_12.xsize (grid0.coords t) 1 = 2) t

/-- Row `p` of the staged instance block, whatever fills the block past the array's end, is row `1024 t + p` of
    the instance array, when that row exists. -/
theorem fill_in_apply (c : Dev nD) (t : Fin cfg0.N) (d : S1024x1024.Idx → Elt F .f32) (p k : Fin 1024)
    (hp : 1024 * t.val + p.val < 50000) :
    (win0_0.fill (grid0.coords t) d (iblk m c 0 t) : S1024x1024.Idx → Elt F .f32) (ix2 p k)
      = (V m c main_arg0 : S50000x1024.Idx → Elt F .f32) (ix2 (⟨1024 * t.val + p.val, hp⟩ : Fin 50000) k) := by
  -- the entry lies in the part of the block the fetch moves: row `p` is inside the array, every column is
  have hm : win0_0.moved (grid0.coords t) (ix2 p k) = true := by
    refine (win0_0.moved_iff _ _).mpr fun a => ?_
    match a with
    | ⟨0, _⟩ =>
      show p.val < win0_0.xsize (grid0.coords t) 0
      rw [xsize0_rows t]; omega
    | ⟨1, _⟩ =>
      show k.val < win0_0.xsize (grid0.coords t) 1
      rw [xsize0_cols t]; exact k.isLt
  unfold Window.fill
  rw [dif_pos hm]
  unfold iblk
  rw [View.read_apply]
  change (V m c main_arg0 : S50000x1024.Idx → Elt F .f32) _ = _
  refine congrArg (V m c main_arg0 : S50000x1024.Idx → Elt F .f32) ?_
  -- the block's entry sits at block index × block size + its own coordinate: row `t · 1024 + p`, column `k`
  funext a
  refine Fin.ext ?_
  match a with
  | ⟨0, _⟩ =>
    refine (win0_0.rect_emb_val t _ 0).trans ?_
    rw [index0_0 t]
    show t.val * 1024 + p.val = 1024 * t.val + p.val
    omega
  | ⟨1, _⟩ =>
    refine (win0_0.rect_emb_val_of_index_zero t 1 (index0_1 t) _).trans ?_
    rfl

/-- Window 1 stages its whole array at every point. -/
theorem iblk1_apply (c : Dev nD) (t : Fin cfg0.N) (j : S1024x512.Idx) :
    (iblk m c 1 t : S1024x512.Idx → Elt F .f32) j = (V m c main_arg1 : S1024x512.Idx → Elt F .f32) j := by
  unfold iblk
  rw [View.read_apply]
  change (V m c main_arg1 : S1024x512.Idx → Elt F .f32) _ = _
  refine congrArg (V m c main_arg1 : S1024x512.Idx → Elt F .f32) ?_
  -- the block index is zero on every axis: an entry of the block has the same coordinates in the array
  funext a
  exact Fin.ext (win0_1.rect_emb_val_of_index_zero t a (index1 t a) j)

/-- Window 2 stages its whole array at every point. -/
theorem iblk2_apply (c : Dev nD) (t : Fin cfg0.N) (j : S1x512.Idx) :
    (iblk m c 2 t : S1x512.Idx → Elt F .f32) j = (V m c main_v5 : S1x512.Idx → Elt F .f32) j := by
  unfold iblk
  rw [View.read_apply]
  change (V m c main_v5 : S1x512.Idx → Elt F .f32) _ = _
  refine congrArg (V m c main_v5 : S1x512.Idx → Elt F .f32) ?_
  -- the block index is zero on every axis: an entry of the block has the same coordinates in the array
  funext a
  exact Fin.ext (win0_2.rect_emb_val_of_index_zero t a (index2 t a) j)

/-- Window 3 stages its whole array at every point. -/
theorem iblk3_apply (c : Dev nD) (t : Fin cfg0.N) (j : S512x512.Idx) :
    (iblk m c 3 t : S512x512.Idx → Elt F .bf16) j = (V m c main_v1 : S512x512.Idx → Elt F .bf16) j := by
  unfold iblk
  rw [View.read_apply]
  change (V m c main_v1 : S512x512.Idx → Elt F .bf16) _ = _
  refine congrArg (V m c main_v1 : S512x512.Idx → Elt F .bf16) ?_
  -- the block index is zero on every axis: an entry of the block has the same coordinates in the array
  funext a
  exact Fin.ext (win0_3.rect_emb_val_of_index_zero t a (index3 t a) j)

/-- Window 4 stages its whole array at every point. -/
theorem iblk4_apply (c : Dev nD) (t : Fin cfg0.N) (j : S1x512.Idx) :
    (iblk m c 4 t : S1x512.Idx → Elt F .f32) j = (V m c main_v7 : S1x512.Idx → Elt F .f32) j := by
  unfold iblk
  rw [View.read_apply]
  change (V m c main_v7 : S1x512.Idx → Elt F .f32) _ = _
  refine congrArg (V m c main_v7 : S1x512.Idx → Elt F .f32) ?_
  -- the block index is zero on every axis: an entry of the block has the same coordinates in the array
  funext a
  exact Fin.ext (win0_4.rect_emb_val_of_index_zero t a (index4 t a) j)

/-- Window 5 stages its whole array at every point. -/
theorem iblk5_apply (c : Dev nD) (t : Fin cfg0.N) (j : S256x256.Idx) :
    (iblk m c 5 t : S256x256.Idx → Elt F .bf16) j = (V m c main_v2 : S256x256.Idx → Elt F .bf16) j := by
  unfold iblk
  rw [View.read_apply]
  change (V m c main_v2 : S256x256.Idx → Elt F .bf16) _ = _
  refine congrArg (V m c main_v2 : S256x256.Idx → Elt F .bf16) ?_
  -- the block index is zero on every axis: an entry of the block has the same coordinates in the array
  funext a
  exact Fin.ext (win0_5.rect_emb_val_of_index_zero t a (index5 t a) j)

/-- Window 6 stages its whole array at every point. -/
theorem iblk6_apply (c : Dev nD) (t : Fin cfg0.N) (j : S1x256.Idx) :
    (iblk m c 6 t : S1x256.Idx → Elt F .f32) j = (V m c main_v8 : S1x256.Idx → Elt F .f32) j := by
  unfold iblk
  rw [View.read_apply]
  change (V m c main_v8 : S1x256.Idx → Elt F .f32) _ = _
  refine congrArg (V m c main_v8 : S1x256.Idx → Elt F .f32) ?_
  -- the block index is zero on every axis: an entry of the block has the same coordinates in the array
  funext a
  exact Fin.ext (win0_6.rect_emb_val_of_index_zero t a (index6 t a) j)

/-- Window 7 stages its whole array at every point. -/
theorem iblk7_apply (c : Dev nD) (t : Fin cfg0.N) (j : S256x256.Idx) :
    (iblk m c 7 t : S256x256.Idx → Elt F .bf16) j = (V m c main_v3 : S256x256.Idx → Elt F .bf16) j := by
  unfold iblk
  rw [View.read_apply]
  change (V m c main_v3 : S256x256.Idx → Elt F .bf16) _ = _
  refine congrArg (V m c main_v3 : S256x256.Idx → Elt F .bf16) ?_
  -- the block index is zero on every axis: an entry of the block has the same coordinates in the array
  funext a
  exact Fin.ext (win0_7.rect_emb_val_of_index_zero t a (index7 t a) j)

/-- Window 8 stages its whole array at every point. -/
theorem iblk8_apply (c : Dev nD) (t : Fin cfg0.N) (j : S1x256.Idx) :
    (iblk m c 8 t : S1x256.Idx → Elt F .f32) j = (V m c main_v9 : S1x256.Idx → Elt F .f32) j := by
  unfold iblk
  rw [View.read_apply]
  change (V m c main_v9 : S1x256.Idx → Elt F .f32) _ = _
  refine congrArg (V m c main_v9 : S1x256.Idx → Elt F .f32) ?_
  -- the block index is zero on every axis: an entry of the block has the same coordinates in the array
  funext a
  exact Fin.ext (win0_8.rect_emb_val_of_index_zero t a (index8 t a) j)

/-- Window 9 stages its whole array at every point. -/
theorem iblk9_apply (c : Dev nD) (t : Fin cfg0.N) (j : S256x2.Idx) :
    (iblk m c 9 t : S256x2.Idx → Elt F .bf16) j = (V m c main_v4 : S256x2.Idx → Elt F .bf16) j := by
  unfold iblk
  rw [View.read_apply]
  change (V m c main_v4 : S256x2.Idx → Elt F .bf16) _ = _
  refine congrArg (V m c main_v4 : S256x2.Idx → Elt F .bf16) ?_
  -- the block index is zero on every axis: an entry of the block has the same coordinates in the array
  funext a
  exact Fin.ext (win0_9.rect_emb_val_of_index_zero t a (index9 t a) j)

/-- Window 10 stages its whole array at every point. -/
theorem iblk10_apply (c : Dev nD) (t : Fin cfg0.N) (j : S1x2.Idx) :
    (iblk m c 10 t : S1x2.Idx → Elt F .f32) j = (V m c main_v10 : S1x2.Idx → Elt F .f32) j := by
  unfold iblk
  rw [View.read_apply]
  change (V m c main_v10 : S1x2.Idx → Elt F .f32) _ = _
  refine congrArg (V m c main_v10 : S1x2.Idx → Elt F .f32) ?_
  -- the block index is zero on every axis: an entry of the block has the same coordinates in the array
  funext a
  exact Fin.ext (win0_10.rect_emb_val_of_index_zero t a (index10 t a) j)

/-! ## The two result windows' blocks, by coordinates -/

/-- An entry of the part of the feature block that is written back, as an entry of the whole block. -/
theorem xinj11_eq (t : Fin cfg0.N) (y : (win0_11.xblock (grid0.coords t)).Idx) :
    (win0_11.xinj (grid0.coords t) y : S1024x512.Idx)
      = ix2 (⟨(y 0).val, Nat.lt_of_lt_of_le (y 0).isLt (win0_11.xsize_le (grid0.coords t) 0)⟩ : Fin 1024)
          (⟨(y 1).val, Nat.lt_of_lt_of_le (y 1).isLt (win0_11.xsize_le (grid0.coords t) 1)⟩ : Fin 512) := by
  funext a
  match a with
  | ⟨0, _⟩ => rfl
  | ⟨1, _⟩ => rfl

/-- Its row is a row of the array. -/
theorem rows11_lt (t : Fin cfg0.N) (y : (win0_11.xblock (grid0.coords t)).Idx) : 1024 * t.val + (y 0).val < 50000 := by
  have h : (y 0).val < win0_11.xsize (grid0.coords t) 0 := (y 0).isLt
  rw [xsize11_rows t] at h
  omega
theorem cols11_lt (t : Fin cfg0.N) (y : (win0_11.xblock (grid0.coords t)).Idx) : (y 1).val < 512 := by
  have h : (y 1).val < win0_11.xsize (grid0.coords t) 1 := (y 1).isLt
  rw [xsize11_cols t] at h
  exact h

/-- Where the write-back at point `t` puts it in the feature array. -/
theorem emb11_eq (t : Fin cfg0.N) (y : (win0_11.xblock (grid0.coords t)).Idx) :
    (((cfg0.win 11).blk t).view.emb y : S50000x512.Idx)
      = ix2 (⟨1024 * t.val + (y 0).val, rows11_lt t y⟩ : Fin 50000) (⟨(y 1).val, cols11_lt t y⟩ : Fin 512) := by
  funext a
  refine Fin.ext ?_
  match a with
  | ⟨0, _⟩ =>
    refine (win0_11.rect_emb_val t y 0).trans ?_
    rw [index11_0 t]
    show t.val * 1024 + (y 0).val = 1024 * t.val + (y 0).val
    omega
  | ⟨1, _⟩ =>
    refine (win0_11.rect_emb_val_of_index_zero t 1 (index11_1 t) y).trans ?_
    rfl

theorem xinj12_eq (t : Fin cfg0.N) (y : (win0_12.xblock (grid0.coords t)).Idx) :
    (win0_12.xinj (grid0.coords t) y : S1024x2.Idx)
      = ix2 (⟨(y 0).val, Nat.lt_of_lt_of_le (y 0).isLt (win0_12.xsize_le (grid0.coords t) 0)⟩ : Fin 1024)
          (⟨(y 1).val, Nat.lt_of_lt_of_le (y 1).isLt (win0_12.xsize_le (grid0.coords t) 1)⟩ : Fin 2) := by
  funext a
  match a with
  | ⟨0, _⟩ => rfl
  | ⟨1, _⟩ => rfl
theorem rows12_lt (t : Fin cfg0.N) (y : (win0_12.xblock (grid0.coords t)).Idx) : 1024 * t.val + (y 0).val < 50000 := by
  have h : (y 0).val < win0_12.xsize (grid0.coords t) 0 := (y 0).isLt
  rw [xsize12_rows t] at h
  omega
theorem cols12_lt (t : Fin cfg0.N) (y : (win0_12.xblock (grid0.coords t)).Idx) : (y 1).val < 2 := by
  have h : (y 1).val < win0_12.xsize (grid0.coords t) 1 := (y 1).isLt
  rw [xsize12_cols t] at h
  exact h
theorem emb12_eq (t : Fin cfg0.N) (y : (win0_12.xblock (grid0.coords t)).Idx) :
    (((cfg0.win 12).blk t).view.emb y : S50000x2.Idx)
      = ix2 (⟨1024 * t.val + (y 0).val, rows12_lt t y⟩ : Fin 50000) (⟨(y 1).val, cols12_lt t y⟩ : Fin 2) := by
  funext a
  refine Fin.ext ?_
  match a with
  | ⟨0, _⟩ =>
    refine (win0_12.rect_emb_val t y 0).trans ?_
    rw [index12_0 t]
    show t.val * 1024 + (y 0).val = 1024 * t.val + (y 0).val
    omega
  | ⟨1, _⟩ =>
    refine (win0_12.rect_emb_val_of_index_zero t 1 (index12_1 t) y).trans ?_
    rfl

/-- Every entry of the feature array lies in the block some point writes back: the one holding its row. -/
theorem cover11 (i : S50000x512.Idx) :
    ∃ t : Fin cfg0.N, (cfg0.win 11).flush t = true ∧ i ∈ ((cfg0.win 11).blk t).view.set := by
  have h0 : (i 0).val < 50000 := idx2_lt0 i
  have h1 : (i 1).val < 512 := idx2_lt1 i
  -- the point whose block holds row `i 0`: the quotient by the block's 1024 rows, below 49 since the row is below 50000
  have ht : (i 0).val / 1024 < cfg0.N := by
    rw [show cfg0.N = 49 from N_0]; omega
  refine ⟨⟨(i 0).val / 1024, ht⟩, flush0_11 _, ?_⟩
  show i ∈ ((View.whole main_v11_0).slice (win0_11.rect ⟨(i 0).val / 1024, ht⟩)).set
  rw [View.set_slice_whole, Rect.mem_set_unit]
  intro a
  match a with
  | ⟨0, _⟩ =>
    show win0_11.index ⟨(i 0).val / 1024, ht⟩ 0 * 1024 ≤ (i 0).val
      ∧ (i 0).val < win0_11.index ⟨(i 0).val / 1024, ht⟩ 0 * 1024 + win0_11.xsize (grid0.coords ⟨(i 0).val / 1024, ht⟩) 0
    rw [index11_0 ⟨(i 0).val / 1024, ht⟩, xsize11_rows ⟨(i 0).val / 1024, ht⟩]
    show (i 0).val / 1024 * 1024 ≤ (i 0).val
      ∧ (i 0).val < (i 0).val / 1024 * 1024 + min 1024 (50000 - 1024 * ((i 0).val / 1024))
    omega
  | ⟨1, _⟩ =>
    show win0_11.index ⟨(i 0).val / 1024, ht⟩ 1 * 512 ≤ (i 1).val
      ∧ (i 1).val < win0_11.index ⟨(i 0).val / 1024, ht⟩ 1 * 512 + win0_11.xsize (grid0.coords ⟨(i 0).val / 1024, ht⟩) 1
    rw [index11_1 ⟨(i 0).val / 1024, ht⟩, xsize11_cols ⟨(i 0).val / 1024, ht⟩]
    omega
/-- Likewise every entry of the score array. -/
theorem cover12 (i : S50000x2.Idx) :
    ∃ t : Fin cfg0.N, (cfg0.win 12).flush t = true ∧ i ∈ ((cfg0.win 12).blk t).view.set := by
  have h0 : (i 0).val < 50000 := idx2_lt0 i
  have h1 : (i 1).val < 2 := idx2_lt1 i
  -- the point whose block holds row `i 0`: the quotient by the block's 1024 rows, below 49 since the row is below 50000
  have ht : (i 0).val / 1024 < cfg0.N := by
    rw [show cfg0.N = 49 from N_0]; omega
  refine ⟨⟨(i 0).val / 1024, ht⟩, flush0_12 _, ?_⟩
  show i ∈ ((View.whole main_v11_1).slice (win0_12.rect ⟨(i 0).val / 1024, ht⟩)).set
  rw [View.set_slice_whole, Rect.mem_set_unit]
  intro a
  match a with
  | ⟨0, _⟩ =>
    show win0_12.index ⟨(i 0).val / 1024, ht⟩ 0 * 1024 ≤ (i 0).val
      ∧ (i 0).val < win0_12.index ⟨(i 0).val / 1024, ht⟩ 0 * 1024 + win0_12.xsize (grid0.coords ⟨(i 0).val / 1024, ht⟩) 0
    rw [index12_0 ⟨(i 0).val / 1024, ht⟩, xsize12_rows ⟨(i 0).val / 1024, ht⟩]
    show (i 0).val / 1024 * 1024 ≤ (i 0).val
      ∧ (i 0).val < (i 0).val / 1024 * 1024 + min 1024 (50000 - 1024 * ((i 0).val / 1024))
    omega
  | ⟨1, _⟩ =>
    show win0_12.index ⟨(i 0).val / 1024, ht⟩ 1 * 2 ≤ (i 1).val
      ∧ (i 1).val < win0_12.index ⟨(i 0).val / 1024, ht⟩ 1 * 2 + win0_12.xsize (grid0.coords ⟨(i 0).val / 1024, ht⟩) 1
    rw [index12_1 ⟨(i 0).val / 1024, ht⟩, xsize12_cols ⟨(i 0).val / 1024, ht⟩]
    omega

end Cert.KernelIdeal.Hand

end
-- ==== Proof.RowValue.lean ====
import proofs.«423746_j17669495455829_3_alg».proof.Proof.Gen.KernelIdeal.Frame
import proofs.«423746_j17669495455829_3_alg».proof.Proof.Spec
import proofs.«423746_j17669495455829_3_alg».proof.Proof.PayloadH
import proofs.«423746_j17669495455829_3_alg».proof.Proof.PayloadA
import proofs.«423746_j17669495455829_3_alg».proof.Proof.HostPrep
import proofs.«423746_j17669495455829_3_alg».proof.Proof.Blocks
import Idealize.ShloMosaic.Lib.ValueIdx
import Idealize.ShloMosaic.Lib.Pipeline.Value

set_option maxRecDepth 16384

noncomputable section

namespace Cert.KernelIdeal.Hand

open Cert.KernelIdeal Cert.KernelIdeal.Gen Cert.GatedAttn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## A row of the network depends on its arguments only -/

theorem hidR_congr {xr xr' : Fin 1024 → EReal} {W W' : Fin 1024 → Fin 512 → EReal} {b b' : Fin 512 → EReal}
    (h1 : xr = xr') (h2 : W = W') (h3 : b = b') : hidR xr W b = hidR xr' W' b' := by
  subst h1 h2 h3; rfl

theorem attR_congr {hr hr' : Fin 512 → EReal}
    {Wv1 Wv1' : Fin 512 → Fin 256 → EReal} {bv1 bv1' : Fin 256 → EReal} {Wv2 Wv2' : Fin 256 → Fin 256 → EReal} {bv2 bv2' : Fin 256 → EReal}
    {Wu1 Wu1' : Fin 512 → Fin 256 → EReal} {bu1 bu1' : Fin 256 → EReal} {Wu2 Wu2' : Fin 256 → Fin 256 → EReal} {bu2 bu2' : Fin 256 → EReal}
    {Wf Wf' : Fin 256 → Fin 2 → EReal} {bf bf' : Fin 2 → EReal}
    (h0 : hr = hr') (h1 : Wv1 = Wv1') (h2 : bv1 = bv1') (h3 : Wv2 = Wv2') (h4 : bv2 = bv2')
    (h5 : Wu1 = Wu1') (h6 : bu1 = bu1') (h7 : Wu2 = Wu2') (h8 : bu2 = bu2') (h9 : Wf = Wf') (h10 : bf = bf') :
    attR hr Wv1 bv1 Wv2 bv2 Wu1 bu1 Wu2 bu2 Wf bf = attR hr' Wv1' bv1' Wv2' bv2' Wu1' bu1' Wu2' bu2' Wf' bf' := by
  subst h0 h1 h2 h3 h4 h5 h6 h7 h8 h9 h10; rfl

/-! ## What the body stores, on the rows that are written back

Whatever fills the staged instance block past the array's end, an entry of the stored feature block that lies inside
the array is the compressed feature of that instance, and an entry of the stored score block its attention score: each
row of either is a function of the same row of the instance block, and that row is the instance array's. -/

/-- The compressed features of the instance in row `p` of the staged block, as the specification's row of the array. -/
theorem hid_row (c : Dev nD) (t : Fin cfg0.N) (d : S1024x1024.Idx → EReal) (p : Fin 1024) (hp : 1024 * t.val + p.val < 50000) :
    hidR (fun k => (win0_0.fill (grid0.coords t) d (iblk m c 0 t) : S1024x1024.Idx → EReal) (ix2 p k))
        (fun k q => (iblk m c 1 t : S1024x512.Idx → EReal) (ix2 k q)) (fun q => (iblk m c 2 t : S1x512.Idx → EReal) (ix2 0 q))
      = hidR (fun k => ((m ((c : Thread nD τ).loc main_arg0)) : S50000x1024.Idx → EReal) (ix2 (⟨1024 * t.val + p.val, hp⟩ : Fin 50000) k))
          (fun k q => ((m ((c : Thread nD τ).loc main_arg1)) : S1024x512.Idx → EReal) (ix2 k q))
          (fun q => ((m ((c : Thread nD τ).loc main_arg2)) : S512.Idx → EReal) (ix1 q)) := by
  refine hidR_congr ?_ ?_ ?_
  · funext k; rw [fill_in_apply m c t d p k hp, V_main_arg0]
  · funext k q; rw [iblk1_apply, V_main_arg1]
  · funext q; rw [iblk2_apply, V_v5_apply]

/-- An entry of the stored feature block inside the array is the specification's entry of the feature array it is written to. -/
theorem outH_row (c : Dev nD) (t : Fin cfg0.N) (d : S1024x1024.Idx → EReal) (y : (win0_11.xblock (grid0.coords t)).Idx) :
    k0_pay2 (F := Ideal) (win0_0.fill (grid0.coords t) d (iblk m c 0 t)) (iblk m c 1 t) (iblk m c 2 t)
        (win0_11.xinj (grid0.coords t) y)
      = hOut (m ((c : Thread nD τ).loc main_arg0)) (m ((c : Thread nD τ).loc main_arg1)) (m ((c : Thread nD τ).loc main_arg2)) (((cfg0.win 11).blk t).view.emb y) := by
  rw [xinj11_eq, emb11_eq]
  refine (pay2_apply _ _ _ _ _).trans ?_
  unfold hOut
  exact congrFun (hid_row m c t d _ (rows11_lt t y)) _

/-- An entry of the stored score block inside the array is the specification's entry of the score array it is written to. -/
theorem outA_row (c : Dev nD) (t : Fin cfg0.N) (d : S1024x1024.Idx → EReal) (y : (win0_12.xblock (grid0.coords t)).Idx) :
    k0_pay1 (F := Ideal)
        (k0_pay4 (win0_0.fill (grid0.coords t) d (iblk m c 0 t)) (iblk m c 1 t) (iblk m c 2 t) (iblk m c 3 t) (iblk m c 4 t) (iblk m c 5 t) (iblk m c 6 t))
        (k0_pay5 (win0_0.fill (grid0.coords t) d (iblk m c 0 t)) (iblk m c 1 t) (iblk m c 2 t) (iblk m c 3 t) (iblk m c 4 t) (iblk m c 7 t))
        (iblk m c 8 t) (iblk m c 9 t) (iblk m c 10 t)
        (win0_12.xinj (grid0.coords t) y)
      = aOut (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (((cfg0.win 12).blk t).view.emb y) := by
  rw [xinj12_eq, emb12_eq]
  refine (pay1_apply _ _ _ _ _ _ _ _ _ _ _ _ _).trans ?_
  unfold aOut
  refine congrFun (attR_congr (hid_row m c t d _ (rows12_lt t y)) ?_ ?_ ?_ ?_ ?_ ?_ ?_ ?_ ?_ ?_) _
  · funext k l; rw [iblk3_apply, V_v1_left]
  · funext l; rw [iblk4_apply, V_v7_left]
  · funext l j; rw [iblk5_apply, V_v2_apply]
  · funext j; rw [iblk6_apply, V_v8_apply]
  · funext k l; rw [iblk3_apply, V_v1_right]
  · funext l; rw [iblk4_apply, V_v7_right]
  · funext l j; rw [iblk7_apply, V_v3_apply]
  · funext j; rw [iblk8_apply, V_v9_apply]
  · funext j q; rw [iblk9_apply, V_v4_apply]
  · funext q; rw [iblk10_apply, V_v10_apply]

end Cert.KernelIdeal.Hand

end
-- ==== Proof.Value.lean ====
/-
  The values of the idealized kernel's two results. On the extended reals every row of either result is a function of the
  same row of the instance block, so the rows past the arrays' end never reach a row that is written back: the body
  obligation holds with the results named, each point writes back its block of the specification's arrays, the blocks
  tile the arrays, and the run ends with the compressed features and the attention scores of every instance.
-/
import proofs.«423746_j17669495455829_3_alg».proof.Proof.Gen.KernelIdeal.Frame
import proofs.«423746_j17669495455829_3_alg».proof.Proof.Gen.KernelIdeal.Points
import proofs.«423746_j17669495455829_3_alg».proof.Proof.BodyRun
import proofs.«423746_j17669495455829_3_alg».proof.Proof.Data
import proofs.«423746_j17669495455829_3_alg».proof.Proof.RowValue
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.GatedAttn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## On the extended reals the rows past the array's end do not matter

Each row of either result is a function of the same row of the instance block. So what the body stores on the rows that
are written back is the same whatever the instance window's buffer holds past the array's end: the proof data may name
it, and the body obligation holds exactly. -/

theorem cutH_eq (c : Dev nD) (t : Fin cfg0.N) (d : S1024x1024.Idx → EReal) :
    win0_11.cut (grid0.coords t) (outH (F := Ideal) (win0_0.fill (grid0.coords t) d (iblk m c 0 t)) (iblk m c 1 t) (iblk m c 2 t))
      = win0_11.cut (grid0.coords t) ((dats m 0 c).after 11 t) := by
  rw [after0_11]
  funext y
  exact (outH_row m c t d y).trans (outH_row m c t _ y).symm

theorem cutA_eq (c : Dev nD) (t : Fin cfg0.N) (d : S1024x1024.Idx → EReal) :
    win0_12.cut (grid0.coords t) (outA (F := Ideal) (win0_0.fill (grid0.coords t) d (iblk m c 0 t)) (iblk m c 1 t) (iblk m c 2 t)
        (iblk m c 3 t) (iblk m c 4 t) (iblk m c 5 t) (iblk m c 6 t) (iblk m c 7 t) (iblk m c 8 t) (iblk m c 9 t) (iblk m c 10 t))
      = win0_12.cut (grid0.coords t) ((dats m 0 c).after 12 t) := by
  rw [after0_12]
  funext y
  exact (outA_row m c t d y).trans (outA_row m c t _ y).symm

/-! ## The exact body obligation -/

def bodyPreX (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPostX (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare
        (win0_11.fill (grid0.coords t) d (win0_11.cut (grid0.coords t) ((dats m 0 c).after 11 t))))
    ∗ (∃ d, owns (c : Thread nD τ) (st0_12 t) fullShare
        (win0_12.fill (grid0.coords t) d (win0_12.cut (grid0.coords t) ((dats m 0 c).after 12 t)))))

set_option maxHeartbeats 1000000 in
/-- The body at any point, exactly: the results' buffers end holding, on the rows that are written back, the blocks the
    proof data names (`cutH_eq`, `cutA_eq`). -/
theorem sound_body (c : Dev nD) (t : Fin cfg0.N) :
    bodyPreX m c t ⊢ wp frame (wpE (defs₀ (F := Ideal)) Variants.none c none) Set.univ (bodyAt0 t) (fun _ => bodyPostX m c t) := by
  unfold bodyPreX bodyPostX bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, cut_xin]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; rw [win0_11.fill_congr_cut (grid0.coords t) (cutH_eq m c t d0)]; iexact H11
  · iexists _; rw [win0_12.fill_congr_cut (grid0.coords t) (cutA_eq m c t d0)]; iexact H12

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run, and the two result arrays -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- What point `t` writes back into the feature array is its block of the compressed features of all instances. -/
theorem flushed11 (c : Dev nD) (t : Fin cfg0.N) :
    (dats m 0 c).flushed 11 t = ((cfg0.win 11).blk t).view.read (Elt Ideal)
      (hOut (m ((c : Thread nD τ).loc main_arg0)) (m ((c : Thread nD τ).loc main_arg1)) (m ((c : Thread nD τ).loc main_arg2))) := by
  funext y
  show win0_11.cut (grid0.coords t) ((dats m 0 c).after 11 t) y = _
  rw [after0_11, View.read_apply]
  exact outH_row m c t _ y

/-- And into the score array its block of the attention scores of all instances. -/
theorem flushed12 (c : Dev nD) (t : Fin cfg0.N) :
    (dats m 0 c).flushed 12 t = ((cfg0.win 12).blk t).view.read (Elt Ideal)
      (aOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  funext y
  show win0_12.cut (grid0.coords t) ((dats m 0 c).after 12 t) y = _
  rw [after0_12, View.read_apply]
  exact outA_row m c t _ y

/-- The blocks tile the arrays, so after the run the feature array holds the compressed features of every instance, -/
theorem final11 (c : Dev nD) : (dats m 0 c).arrAt 11 cfg0.N = hOut (m ((c : Thread nD τ).loc main_arg0)) (m ((c : Thread nD τ).loc main_arg1)) (m ((c : Thread nD τ).loc main_arg2)) :=
  (dats m 0 c).arrAt_eq_of_cover 11 _ (fun t _ => flushed11 m c t) cover11

/-- and the score array the attention scores of every instance. -/
theorem final12 (c : Dev nD) : (dats m 0 c).arrAt 12 cfg0.N = aOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 12 _ (fun t _ => flushed12 m c t) cover12

/-- The idealized kernel's run, with both results named: the compressed features and the attention scores of the
    argument arrays, which end unchanged. -/
theorem run_value : θ_run defs (onTc (τ := τ) (main (F := Ideal))) ⟨m, fun _ => 0, ρ⟩ (fun r => ∀ c : Dev nD,
      r.2.mem ((c.tc : Thread nD τ).loc main_v11_0) = hOut (m ((c : Thread nD τ).loc main_arg0)) (m ((c : Thread nD τ).loc main_arg1)) (m ((c : Thread nD τ).loc main_arg2))
      ∧ r.2.mem ((c.tc : Thread nD τ).loc main_v11_1) = aOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 11).trans (final11 m c), ((h c).1 12).trans (final12 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.KernelIdeal.Hand

end
-- ==== Proof.RefValue.lean ====
import proofs.«423746_j17669495455829_3_alg».proof.Proof.Gen.ReferenceIdeal.Run
import proofs.«423746_j17669495455829_3_alg».proof.Proof.Gen.ReferenceIdeal.Read
import proofs.«423746_j17669495455829_3_alg».proof.Proof.Spec
import Idealize.ShloMosaic.PureOps.Ideal.Laws
import Idealize.ShloMosaic.Lib.ValueIdx
import Idealize.ShloMosaic.Lib.IdealHost

noncomputable section

namespace Cert.ReferenceIdeal.Hand

open Idealize.ShloMosaic Idealize.ShloMosaic.ValueIdx Cert.ReferenceIdeal Cert.ReferenceIdeal.Read Cert.GatedAttn

/-! ## The reference's composed index maps, at a row and a column

A contraction reads its left operand at the result's row and the contracted position, its right operand at the
contracted position and the result's column; a bias broadcast reads the bias at the result's column. -/

theorem lidx_v0_eq (i : S50000x512.Idx) (k : Fin 1024) : lidx_main_v0 i k = ix2 (rowOf i) k :=
  funext fun a => Fin.ext (by match a with | ⟨0, _⟩ => rfl | ⟨1, _⟩ => rfl)

theorem ridx_v0_eq (i : S50000x512.Idx) (k : Fin 1024) : ridx_main_v0 i k = ix2 k (colOf i) :=
  funext fun a => Fin.ext (by match a with | ⟨0, _⟩ => rfl | ⟨1, _⟩ => rfl)

theorem bidx_v2_eq (i : S50000x512.Idx) : idx_main_v1 (idx_main_v2 i) = ix1 (colOf i) :=
  funext fun a => Fin.ext (by match a with | ⟨0, _⟩ => rfl)

theorem lidx5 (r : Fin 50000) (j : Fin 256) (k : Fin 512) : lidx_main_v5 (ix2 r j) k = ix2 r k :=
  funext fun a => Fin.ext (by match a with | ⟨0, _⟩ => rfl | ⟨1, _⟩ => rfl)
theorem ridx5 (r : Fin 50000) (j : Fin 256) (k : Fin 512) : ridx_main_v5 (ix2 r j) k = ix2 k j :=
  funext fun a => Fin.ext (by match a with | ⟨0, _⟩ => rfl | ⟨1, _⟩ => rfl)
theorem bidx7 (r : Fin 50000) (j : Fin 256) : idx_main_v6 (idx_main_v7 (ix2 r j)) = ix1 j :=
  funext fun a => Fin.ext (by match a with | ⟨0, _⟩ => rfl)
theorem lidx9 (r : Fin 50000) (j : Fin 256) (k : Fin 256) : lidx_main_v9 (ix2 r j) k = ix2 r k :=
  funext fun a => Fin.ext (by match a with | ⟨0, _⟩ => rfl | ⟨1, _⟩ => rfl)
theorem ridx9 (r : Fin 50000) (j : Fin 256) (k : Fin 256) : ridx_main_v9 (ix2 r j) k = ix2 k j :=
  funext fun a => Fin.ext (by match a with | ⟨0, _⟩ => rfl | ⟨1, _⟩ => rfl)
theorem bidx11 (r : Fin 50000) (j : Fin 256) : idx_main_v10 (idx_main_v11 (ix2 r j)) = ix1 j :=
  funext fun a => Fin.ext (by match a with | ⟨0, _⟩ => rfl)
theorem lidx14 (r : Fin 50000) (j : Fin 256) (k : Fin 512) : lidx_main_v14 (ix2 r j) k = ix2 r k :=
  funext fun a => Fin.ext (by match a with | ⟨0, _⟩ => rfl | ⟨1, _⟩ => rfl)
theorem ridx14 (r : Fin 50000) (j : Fin 256) (k : Fin 512) : ridx_main_v14 (ix2 r j) k = ix2 k j :=
  funext fun a => Fin.ext (by match a with | ⟨0, _⟩ => rfl | ⟨1, _⟩ => rfl)
theorem bidx16 (r : Fin 50000) (j : Fin 256) : idx_main_v15 (idx_main_v16 (ix2 r j)) = ix1 j :=
  funext fun a => Fin.ext (by match a with | ⟨0, _⟩ => rfl)
theorem lidx18 (r : Fin 50000) (j : Fin 256) (k : Fin 256) : lidx_main_v18 (ix2 r j) k = ix2 r k :=
  funext fun a => Fin.ext (by match a with | ⟨0, _⟩ => rfl | ⟨1, _⟩ => rfl)
theorem ridx18 (r : Fin 50000) (j : Fin 256) (k : Fin 256) : ridx_main_v18 (ix2 r j) k = ix2 k j :=
  funext fun a => Fin.ext (by match a with | ⟨0, _⟩ => rfl | ⟨1, _⟩ => rfl)
theorem bidx20 (r : Fin 50000) (j : Fin 256) : idx_main_v19 (idx_main_v20 (ix2 r j)) = ix1 j :=
  funext fun a => Fin.ext (by match a with | ⟨0, _⟩ => rfl)
theorem lidx29 (r : Fin 50000) (j : Fin 2) (k : Fin 256) : lidx_main_v29 (ix2 r j) k = ix2 r k :=
  funext fun a => Fin.ext (by match a with | ⟨0, _⟩ => rfl | ⟨1, _⟩ => rfl)
theorem ridx29 (r : Fin 50000) (j : Fin 2) (k : Fin 256) : ridx_main_v29 (ix2 r j) k = ix2 k j :=
  funext fun a => Fin.ext (by match a with | ⟨0, _⟩ => rfl | ⟨1, _⟩ => rfl)
theorem bidx31 (r : Fin 50000) (j : Fin 2) : idx_main_v30 (idx_main_v31 (ix2 r j)) = ix1 j :=
  funext fun a => Fin.ext (by match a with | ⟨0, _⟩ => rfl)

/-! ## The compressed features -/

/-- The reference's first result is the compressed features of every instance. -/
theorem ref_h (x0 : (⟨S50000x1024, .f32⟩ : BufTy).Contents (Elt Ideal)) (x1 : (⟨S1024x512, .f32⟩ : BufTy).Contents (Elt Ideal))
    (x2 : (⟨S512, .f32⟩ : BufTy).Contents (Elt Ideal)) :
    val_main_v4 (F := Ideal) x0 x1 x2 = hOut x0 x1 x2 := by
  funext i
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx_v0_eq, ridx_v0_eq,
    bidx_v2_eq]
  rfl

/-- The compressed features at row `r`, entry `q`. -/
theorem v4_at (x0 : (⟨S50000x1024, .f32⟩ : BufTy).Contents (Elt Ideal)) (x1 : (⟨S1024x512, .f32⟩ : BufTy).Contents (Elt Ideal))
    (x2 : (⟨S512, .f32⟩ : BufTy).Contents (Elt Ideal)) (r : Fin 50000) (q : Fin 512) :
    val_main_v4 (F := Ideal) x0 x1 x2 (ix2 r q) = (hidR (fun k => x0 (ix2 r k)) (fun k q => x1 (ix2 k q)) (fun q => x2 (ix1 q))) q := by
  rw [ref_h]
  rfl

/-! ## The two branches' pre-activations: two affine layers on the compressed row -/

/-- The tanh branch's pre-activation at row `r`, entry `j`. -/
theorem v12_at (x0 : (⟨S50000x1024, .f32⟩ : BufTy).Contents (Elt Ideal)) (x1 : (⟨S1024x512, .f32⟩ : BufTy).Contents (Elt Ideal))
    (x2 : (⟨S512, .f32⟩ : BufTy).Contents (Elt Ideal)) (x3 : (⟨S512x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (r : Fin 50000) (j : Fin 256) :
    val_main_v12 (F := Ideal) x0 x1 x2 x3 x4 x5 x6 (ix2 r j)
      = preR (hidR (fun k => x0 (ix2 r k)) (fun k q => x1 (ix2 k q)) (fun q => x2 (ix1 q)))
          (fun k l => x3 (ix2 k l)) (fun l => x4 (ix1 l)) (fun l j => x5 (ix2 l j)) (fun j => x6 (ix1 j)) j := by
  rw [val_main_v12_apply, val_main_v9_apply, val_main_v11_apply, val_main_v10_apply]
  simp only [lidx9, ridx9, bidx11, val_main_v8_apply, val_main_v5_apply, val_main_v7_apply, val_main_v6_apply,
    lidx5, ridx5, bidx7, v4_at, Ideal.addf_def]
  rfl

/-- The logistic branch's pre-activation at row `r`, entry `j`. -/
theorem v21_at (x0 : (⟨S50000x1024, .f32⟩ : BufTy).Contents (Elt Ideal)) (x1 : (⟨S1024x512, .f32⟩ : BufTy).Contents (Elt Ideal))
    (x2 : (⟨S512, .f32⟩ : BufTy).Contents (Elt Ideal)) (x7 : (⟨S512x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (r : Fin 50000) (j : Fin 256) :
    val_main_v21 (F := Ideal) x0 x1 x2 x7 x8 x9 x10 (ix2 r j)
      = preR (hidR (fun k => x0 (ix2 r k)) (fun k q => x1 (ix2 k q)) (fun q => x2 (ix1 q)))
          (fun k l => x7 (ix2 k l)) (fun l => x8 (ix1 l)) (fun l j => x9 (ix2 l j)) (fun j => x10 (ix1 j)) j := by
  rw [val_main_v21_apply, val_main_v18_apply, val_main_v20_apply, val_main_v19_apply]
  simp only [lidx18, ridx18, bidx20, val_main_v17_apply, val_main_v14_apply, val_main_v16_apply, val_main_v15_apply,
    lidx14, ridx14, bidx16, v4_at, Ideal.addf_def]
  rfl

/-- The reference's sigmoid, `1 / (1 + exp (-u))` with both constants the word of `1.0`, is the logistic function of
    the pre-activation `u`. -/
theorem v27_at (x0 : (⟨S50000x1024, .f32⟩ : BufTy).Contents (Elt Ideal)) (x1 : (⟨S1024x512, .f32⟩ : BufTy).Contents (Elt Ideal))
    (x2 : (⟨S512, .f32⟩ : BufTy).Contents (Elt Ideal)) (x7 : (⟨S512x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (i : S50000x256.Idx) :
    val_main_v27 (F := Ideal) x0 x1 x2 x7 x8 x9 x10 i
      = Ideal.logistic (val_main_v21 (F := Ideal) x0 x1 x2 x7 x8 x9 x10 i) := by
  rw [val_main_v27_apply, val_main_v26_apply, val_main_cst_0_apply, val_main_v25_apply, val_main_v24_apply,
    val_main_cst_apply, val_main_v23_apply, val_main_v22_apply]
  simp only [Ideal.hostDivf_def, Ideal.ofBits_def, Ideal.ofBits_one_f32, Ideal.addf_def, Ideal.hostUnary_exp_def,
    Ideal.hostNegf_def, Ideal.negf_def]
  rfl

/-! ## The attention scores -/

/-- The attention scores at row `r`, entry `q`. -/
theorem v32_at (x0 : (⟨S50000x1024, .f32⟩ : BufTy).Contents (Elt Ideal)) (x1 : (⟨S1024x512, .f32⟩ : BufTy).Contents (Elt Ideal))
    (x2 : (⟨S512, .f32⟩ : BufTy).Contents (Elt Ideal)) (x3 : (⟨S512x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S512x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S256x2, .f32⟩ : BufTy).Contents (Elt Ideal))
    (x12 : (⟨S2, .f32⟩ : BufTy).Contents (Elt Ideal)) (r : Fin 50000) (q : Fin 2) :
    val_main_v32 (F := Ideal) x0 x1 x2 x3 x4 x5 x6 x7 x8 x9 x10 x11 x12 (ix2 r q)
      = attR (hidR (fun k => x0 (ix2 r k)) (fun k q => x1 (ix2 k q)) (fun q => x2 (ix1 q)))
          (fun k l => x3 (ix2 k l)) (fun l => x4 (ix1 l)) (fun l j => x5 (ix2 l j)) (fun j => x6 (ix1 j))
          (fun k l => x7 (ix2 k l)) (fun l => x8 (ix1 l)) (fun l j => x9 (ix2 l j)) (fun j => x10 (ix1 j))
          (fun j q => x11 (ix2 j q)) (fun q => x12 (ix1 q)) q := by
  rw [val_main_v32_apply, val_main_v29_apply, val_main_v31_apply, val_main_v30_apply]
  simp only [lidx29, ridx29, bidx31, val_main_v28_apply, val_main_v13_apply, v27_at, v12_at, v21_at,
    Ideal.mulf_def, Ideal.addf_def, Ideal.hostUnary_tanh_def]
  rfl

/-- The reference's second result is the attention scores of every instance: its sigmoid, spelt
    `1 / (1 + exp (-u))`, is the logistic function. -/
theorem ref_a (x0 : (⟨S50000x1024, .f32⟩ : BufTy).Contents (Elt Ideal)) (x1 : (⟨S1024x512, .f32⟩ : BufTy).Contents (Elt Ideal))
    (x2 : (⟨S512, .f32⟩ : BufTy).Contents (Elt Ideal)) (x3 : (⟨S512x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S512x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S256x2, .f32⟩ : BufTy).Contents (Elt Ideal))
    (x12 : (⟨S2, .f32⟩ : BufTy).Contents (Elt Ideal)) :
    val_main_v32 (F := Ideal) x0 x1 x2 x3 x4 x5 x6 x7 x8 x9 x10 x11 x12 = aOut x0 x1 x2 x3 x4 x5 x6 x7 x8 x9 x10 x11 x12 := by
  funext i
  have hi : i = ix2 (rowOf i) (colOf i) := funext fun a => by match a with | ⟨0, _⟩ => rfl | ⟨1, _⟩ => rfl
  exact (congrArg (val_main_v32 (F := Ideal) x0 x1 x2 x3 x4 x5 x6 x7 x8 x9 x10 x11 x12) hi).trans
    (v32_at x0 x1 x2 x3 x4 x5 x6 x7 x8 x9 x10 x11 x12 (rowOf i) (colOf i))

end Cert.ReferenceIdeal.Hand

end
-- ==== Proof.lean ====
/-
  Gated-attention pooling over 50000 instances: a Pallas kernel against its jnp reference, over the extended reals.

  Both programs compress each instance's 1024 features to 512 by a rectified affine layer (the first result), then run two
  branches of two affine layers each, gate the tanh of one by the logistic of the other, and take a last affine layer to
  two attention scores (the second result). The kernel works on blocks of 1024 instances; it merges the two branches'
  first layers into one matrix product of twice the width and slices the result, and changes float formats on the way,
  which are the identity on the extended reals. Every result row is a function of the same instance row, so the rows
  of the last block that lie past the end of the arrays — 49 blocks of 1024 overhang 50000 by 176 — play no part.

  * the frames: each program runs to the end, faults nowhere and leaves its arguments as launched. For the two kernel
    programs this is the pipeline's run with nothing said of the result windows; for the reference its run read back.
  * `preserves`: the idealization rewrote nothing.
  * `algebraic`: the idealized kernel's results are the specification's two arrays (`run_value`), and so are the
    reference's (`ref_h`, `ref_a`: its sigmoid, spelt with a division, is the logistic function).
-/
import proofs.«423746_j17669495455829_3_alg».proof.Defs
import proofs.«423746_j17669495455829_3_alg».proof.Proof.Gen.Kernel
import proofs.«423746_j17669495455829_3_alg».proof.Proof.Gen.KernelIdeal
import proofs.«423746_j17669495455829_3_alg».proof.Proof.Gen.ReferenceIdeal
import proofs.«423746_j17669495455829_3_alg».proof.Proof.Gen.Pre_finite_inputs
import proofs.«423746_j17669495455829_3_alg».proof.Proof.Gen.ReferenceIdeal.Run
import proofs.«423746_j17669495455829_3_alg».proof.Proof.Gen.ReferenceIdeal.Read
import proofs.«423746_j17669495455829_3_alg».proof.Proof.DataK
import proofs.«423746_j17669495455829_3_alg».proof.Proof.Data
import proofs.«423746_j17669495455829_3_alg».proof.Proof.Value
import proofs.«423746_j17669495455829_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame_main (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_main (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the thirteen arguments both idealized programs end with the compressed features and the
    attention scores the specification names. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_value m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v4_eq, Cert.ReferenceIdeal.Hand.ref_h,
      (hagree c).1, (hagree c).2.1, (hagree c).2.2.1]
  · rw [(h c).2.1, Cert.ReferenceIdeal.Read.val_main_v32_eq, Cert.ReferenceIdeal.Hand.ref_a,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
